-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Kernel.lean ====
abbrev S4096x1024 : Shape := ⟨2, ![4096, 1024]⟩
abbrev S4096 : Shape := ⟨1, ![4096]⟩
abbrev S256x1024 : Shape := ⟨2, ![256, 1024]⟩
abbrev S1024x1024 : Shape := ⟨2, ![1024, 1024]⟩
abbrev S1024 : Shape := ⟨1, ![1024]⟩
abbrev S256x4096 : Shape := ⟨2, ![256, 4096]⟩
abbrev S1x1024 : Shape := ⟨2, ![1, 1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S4096x1024, .f32⟩
  | .hbm, ⟨9, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024, .f32⟩
  | .local _ .vmem, ⟨11, _⟩ => ⟨S1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def k0_cond5 (i : grid0.Coords) : BitVec 1 :=
  let arg1 : BitVec 32 := BitVec.ofNat 32 (i 1).val
  let c3_i32_13 : BitVec 32 := 3#32
  let v29 : BitVec 1 := Scalar.cmpi .eq arg1 c3_i32_13
  let v30 : BitVec 32 := Scalar.extui v29
  let c0_i32_14 : BitVec 32 := 0#32
  let v31 : BitVec 1 := Scalar.cmpi .ne v30 c0_i32_14
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S256x4096_S256x1024_0_0 : ∀ a, (![0, 0] : Fin 2 → Nat) a + S256x1024.size a ≤ S256x4096.size a
  shapeCasts_S256x1024_S256x1024 : S256x1024.ShapeCasts S256x1024
  inb_S256x4096_S256x1024_0_1024 : ∀ a, (![0, 1024] : Fin 2 → Nat) a + S256x1024.size a ≤ S256x4096.size a
  inb_S256x4096_S256x1024_0_2048 : ∀ a, (![0, 2048] : Fin 2 → Nat) a + S256x1024.size a ≤ S256x4096.size a
  inb_S256x4096_S256x1024_0_3072 : ∀ a, (![0, 3072] : Fin 2 → Nat) a + S256x1024.size a ≤ S256x4096.size a
  inb_S256x4096_S256x4096_0_0 : ∀ a, (![0, 0] : Fin 2 → Nat) a + S256x4096.size a ≤ S256x4096.size a
  h_S256x4096 : 0 < S256x4096.numel
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x1024.size a
  hwx0_4 : ∀ i : grid0.Coords, EltTy.bits .bf16 = 32 ∨ (Rect.block (s := S4096x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S4096.size a
  hwx0_5 : ∀ i : grid0.Coords, EltTy.bits .f32 = 32 ∨ (Rect.block (s := S4096) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond5 i == 1#1) | 7 => fun i => !(k0_cond5 i == 1#1) | ⟨_ + 8, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S1024x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Spec.lean ====
/-
  The LSTM cell as one function of the argument arrays, over the extended reals.

  With x, h, c of shape [4096, 1024], the weights Wh, Wx of shape [4096, 1024] (four gate blocks of 1024 rows
  each) and the bias bh of length 4096, the pre-activation of batch row r and gate column j is
      pre r j = (∑ₖ h[r,k]·Wh[j,k] + ∑ₖ x[r,k]·Wx[j,k]) + bh[j],
  the gate column of gate g ∈ {0,1,2,3} and hidden unit q is 1024·g + q, and
      c' r q = σ(pre r (col 1 q))·c[r,q] + σ(pre r (col 0 q))·tanh(pre r (col 2 q)),
      h' r q = σ(pre r (col 3 q))·tanh(c' r q),
  σ the logistic function. The three summands of the pre-activation may be added in any order: addition on the
  extended reals is commutative and associative (`pre_comm`).
-/
import Idealize.ShloMosaic.PureOps.Ideal
import Idealize.ShloMosaic.Lib.ValueIdx

noncomputable section

namespace Cert.Lstm

open Idealize.ShloMosaic Idealize.ShloMosaic.ValueIdx

/-- An array of extended reals over a literal two-axis shape. -/
abbrev Mat (a b : Nat) : Type := (⟨2, ![a, b]⟩ : Shape).Idx → EReal
/-- An array of extended reals over a literal one-axis shape. -/
abbrev Row (a : Nat) : Type := (⟨1, ![a]⟩ : Shape).Idx → EReal

/-- Gate `g`'s column for hidden unit `q` among the 4096 gate columns. -/
def col (g : Fin 4) (q : Fin 1024) : Fin 4096 := ⟨1024 * g.val + q.val, by have := g.isLt; have := q.isLt; omega⟩

@[simp] theorem col_val (g : Fin 4) (q : Fin 1024) : (col g q).val = 1024 * g.val + q.val := rfl

/-- The recurrent product: row `r` of `h` against row `j` of `Wh`. -/
def hW (h : Mat 4096 1024) (Wh : Mat 4096 1024) (r : Fin 4096) (j : Fin 4096) : EReal :=
  ∑ k : Fin 1024, h (ix2 r k) * Wh (ix2 j k)

/-- The input product: row `r` of `x` against row `j` of `Wx`. -/
def xW (x : Mat 4096 1024) (Wx : Mat 4096 1024) (r : Fin 4096) (j : Fin 4096) : EReal :=
  ∑ k : Fin 1024, x (ix2 r k) * Wx (ix2 j k)

/-- The pre-activation of batch row `r`, gate column `j`. -/
def pre (x h : Mat 4096 1024) (Wh : Mat 4096 1024) (bh : Row 4096) (Wx : Mat 4096 1024) (r : Fin 4096) (j : Fin 4096) : EReal :=
  (hW h Wh r j + xW x Wx r j) + bh (ix1 j)

/-- The same number with the bias added before the input product: only the order of a sum of three. -/
theorem pre_comm (x h : Mat 4096 1024) (Wh : Mat 4096 1024) (bh : Row 4096) (Wx : Mat 4096 1024) (r : Fin 4096) (j : Fin 4096) :
    (hW h Wh r j + bh (ix1 j)) + xW x Wx r j = pre x h Wh bh Wx r j := by
  unfold pre
  rw [add_assoc, add_comm (bh (ix1 j)) (xW x Wx r j), ← add_assoc]

/-- The next cell state. -/
def cNext (x h c : Mat 4096 1024) (Wh : Mat 4096 1024) (bh : Row 4096) (Wx : Mat 4096 1024) (r : Fin 4096) (q : Fin 1024) : EReal :=
  Ideal.logistic (pre x h Wh bh Wx r (col 1 q)) * c (ix2 r q)
    + Ideal.logistic (pre x h Wh bh Wx r (col 0 q)) * Ideal.tanh (pre x h Wh bh Wx r (col 2 q))

/-- The next hidden state. -/
def hNext (x h c : Mat 4096 1024) (Wh : Mat 4096 1024) (bh : Row 4096) (Wx : Mat 4096 1024) (r : Fin 4096) (q : Fin 1024) : EReal :=
  Ideal.logistic (pre x h Wh bh Wx r (col 3 q)) * Ideal.tanh (cNext x h c Wh bh Wx r q)

/-- The next cell state as an array. -/
def cNextArr (x h c : Mat 4096 1024) (Wh : Mat 4096 1024) (bh : Row 4096) (Wx : Mat 4096 1024) : Mat 4096 1024 :=
  fun j => cNext x h c Wh bh Wx (j 0) (j 1)

/-- The next hidden state as an array. -/
def hNextArr (x h c : Mat 4096 1024) (Wh : Mat 4096 1024) (bh : Row 4096) (Wx : Mat 4096 1024) : Mat 4096 1024 :=
  fun j => hNext x h c Wh bh Wx (j 0) (j 1)

end Cert.Lstm

end
-- ==== Proof.RefValue.lean ====
/-
  The reference computes the LSTM cell of the specification: its dot_generals are the sums of the pre-activation (each
  against the transposed weight array, so row j of the weights), its bias is broadcast along the batch axis and added
  BEFORE the input product (the same number: a sum of three in another order), its four slices are the four gates'
  columns, and the logistic function spelt out as 1 / (1 + exp(−z)) is the logistic function.
-/
import proofs.«168099_j41764261986629_1_alg».proof.Proof.Gen.ReferenceIdeal.Read
import proofs.«168099_j41764261986629_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.ReferenceIdeal.RefValue

open Idealize.ShloMosaic Idealize.ShloMosaic.ValueIdx Cert.ReferenceIdeal Cert.ReferenceIdeal.Gen Cert.ReferenceIdeal.Read

/-- The literal of the reference's logistic expansion is the number one. -/
theorem one_lit : Ideal.ofBits .f32 0x3F800000#32 = 1 := by
  simp [Ideal.ofBits, Ideal.ieee, -EReal.coe_mul]; norm_num

/-- The reference's spelling of the logistic function, 1 / (1 + exp(−z)) with both ones the literal, is the logistic function. -/
theorem sigmoid_eq (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  simp only [Ideal.hostDivf_def, Ideal.addf_def, Ideal.ofBits_def, Ideal.hostUnary_exp_def, Ideal.hostNegf_def,
    Ideal.negf_def, one_lit]
  rfl

/-- The left operand of the recurrent product at result (r, j), summand k, is h[r, k]. -/
theorem lidx1_eq (r j : Fin 4096) (k : Fin 1024) : lidx_main_v1 (ix2 r j) k = ix2 r k :=
  funext fun a => Fin.ext (by match a with | ⟨0, _⟩ => rfl | ⟨1, _⟩ => rfl)

/-- The right operand of the recurrent product, read through the transpose, is Wh[j, k]. -/
theorem ridx1_eq (r j : Fin 4096) (k : Fin 1024) : idx_main_v0 (ridx_main_v1 (ix2 r j) k) = ix2 j k :=
  funext fun a => Fin.ext (by match a with | ⟨0, _⟩ => rfl | ⟨1, _⟩ => rfl)

/-- The left operand of the input product at result (r, j), summand k, is x[r, k]. -/
theorem lidx6_eq (r j : Fin 4096) (k : Fin 1024) : lidx_main_v6 (ix2 r j) k = ix2 r k :=
  funext fun a => Fin.ext (by match a with | ⟨0, _⟩ => rfl | ⟨1, _⟩ => rfl)

/-- The right operand of the input product, read through the transpose, is Wx[j, k]. -/
theorem ridx6_eq (r j : Fin 4096) (k : Fin 1024) : idx_main_v5 (ridx_main_v6 (ix2 r j) k) = ix2 j k :=
  funext fun a => Fin.ext (by match a with | ⟨0, _⟩ => rfl | ⟨1, _⟩ => rfl)

/-- The bias, broadcast twice, is read at the gate column. -/
theorem bidx_eq (r j : Fin 4096) : idx_main_v2 (idx_main_v3 (ix2 r j)) = ix1 j :=
  funext fun a => Fin.ext (by match a with | ⟨0, _⟩ => rfl)

/-- The reference's sum of three is the pre-activation. -/
theorem pre_read (x0 x1 x3 : (⟨S4096x1024, .f32⟩ : BufTy).Contents (Elt Ideal)) (x4 : (⟨S4096, .f32⟩ : BufTy).Contents (Elt Ideal)) (x5 : (⟨S4096x1024, .f32⟩ : BufTy).Contents (Elt Ideal)) (r j : Fin 4096) :
    val_main_v7 (F := Ideal) x0 x1 x3 x4 x5 (ix2 r j) = Cert.Lstm.pre x0 x1 x3 x4 x5 r j := by
  rw [val_main_v7_apply, val_main_v4_apply, val_main_v1_apply, val_main_v3_apply, val_main_v2_apply, val_main_v6_apply,
    ← Cert.Lstm.pre_comm]
  simp only [val_main_v0_apply, val_main_v5_apply, lidx1_eq, ridx1_eq, lidx6_eq, ridx6_eq, bidx_eq, Ideal.addf_def]
  rfl

/-- The four slices read the pre-activation at the four gates' columns. -/
theorem slice0_idx (r : Fin 4096) (q : Fin 1024) : idx_main_v8 (ix2 r q) = ix2 r (Cert.Lstm.col 0 q) :=
  funext fun a => Fin.ext (by match a with | ⟨0, _⟩ => rfl | ⟨1, _⟩ => (show q.val = 1024 * 0 + q.val; omega))
theorem slice1_idx (r : Fin 4096) (q : Fin 1024) : idx_main_v9 (ix2 r q) = ix2 r (Cert.Lstm.col 1 q) :=
  funext fun a => Fin.ext (by match a with | ⟨0, _⟩ => rfl | ⟨1, _⟩ => (show 1024 + q.val = 1024 * 1 + q.val; omega))
theorem slice2_idx (r : Fin 4096) (q : Fin 1024) : idx_main_v10 (ix2 r q) = ix2 r (Cert.Lstm.col 2 q) :=
  funext fun a => Fin.ext (by match a with | ⟨0, _⟩ => rfl | ⟨1, _⟩ => (show 2048 + q.val = 1024 * 2 + q.val; omega))
theorem slice3_idx (r : Fin 4096) (q : Fin 1024) : idx_main_v11 (ix2 r q) = ix2 r (Cert.Lstm.col 3 q) :=
  funext fun a => Fin.ext (by match a with | ⟨0, _⟩ => rfl | ⟨1, _⟩ => (show 3072 + q.val = 1024 * 3 + q.val; omega))

/-- The input gate. -/
theorem gate_i (x0 x1 x3 : (⟨S4096x1024, .f32⟩ : BufTy).Contents (Elt Ideal)) (x4 : (⟨S4096, .f32⟩ : BufTy).Contents (Elt Ideal)) (x5 : (⟨S4096x1024, .f32⟩ : BufTy).Contents (Elt Ideal)) (r : Fin 4096) (q : Fin 1024) :
    val_main_v17 (F := Ideal) x0 x1 x3 x4 x5 (ix2 r q) = Ideal.logistic (Cert.Lstm.pre x0 x1 x3 x4 x5 r (Cert.Lstm.col 0 q)) := by
  rw [val_main_v17_apply, val_main_v16_apply, val_main_cst_0_apply, val_main_v15_apply, val_main_v14_apply, val_main_cst_apply,
    val_main_v13_apply, val_main_v12_apply, val_main_v8_apply, slice0_idx, pre_read, sigmoid_eq]

/-- The forget gate. -/
theorem gate_f (x0 x1 x3 : (⟨S4096x1024, .f32⟩ : BufTy).Contents (Elt Ideal)) (x4 : (⟨S4096, .f32⟩ : BufTy).Contents (Elt Ideal)) (x5 : (⟨S4096x1024, .f32⟩ : BufTy).Contents (Elt Ideal)) (r : Fin 4096) (q : Fin 1024) :
    val_main_v23 (F := Ideal) x0 x1 x3 x4 x5 (ix2 r q) = Ideal.logistic (Cert.Lstm.pre x0 x1 x3 x4 x5 r (Cert.Lstm.col 1 q)) := by
  rw [val_main_v23_apply, val_main_v22_apply, val_main_cst_2_apply, val_main_v21_apply, val_main_v20_apply, val_main_cst_1_apply,
    val_main_v19_apply, val_main_v18_apply, val_main_v9_apply, slice1_idx, pre_read, sigmoid_eq]

/-- The cell candidate. -/
theorem gate_g (x0 x1 x3 : (⟨S4096x1024, .f32⟩ : BufTy).Contents (Elt Ideal)) (x4 : (⟨S4096, .f32⟩ : BufTy).Contents (Elt Ideal)) (x5 : (⟨S4096x1024, .f32⟩ : BufTy).Contents (Elt Ideal)) (r : Fin 4096) (q : Fin 1024) :
    val_main_v24 (F := Ideal) x0 x1 x3 x4 x5 (ix2 r q) = Ideal.tanh (Cert.Lstm.pre x0 x1 x3 x4 x5 r (Cert.Lstm.col 2 q)) := by
  rw [val_main_v24_apply, val_main_v10_apply, slice2_idx, pre_read, Ideal.hostUnary_tanh_def]

/-- The output gate. -/
theorem gate_o (x0 x1 x3 : (⟨S4096x1024, .f32⟩ : BufTy).Contents (Elt Ideal)) (x4 : (⟨S4096, .f32⟩ : BufTy).Contents (Elt Ideal)) (x5 : (⟨S4096x1024, .f32⟩ : BufTy).Contents (Elt Ideal)) (r : Fin 4096) (q : Fin 1024) :
    val_main_v30 (F := Ideal) x0 x1 x3 x4 x5 (ix2 r q) = Ideal.logistic (Cert.Lstm.pre x0 x1 x3 x4 x5 r (Cert.Lstm.col 3 q)) := by
  rw [val_main_v30_apply, val_main_v29_apply, val_main_cst_4_apply, val_main_v28_apply, val_main_v27_apply, val_main_cst_3_apply,
    val_main_v26_apply, val_main_v25_apply, val_main_v11_apply, slice3_idx, pre_read, sigmoid_eq]

/-- The reference's second result at batch row r, hidden unit q. -/
theorem cNext_at (x0 x1 x2 x3 : (⟨S4096x1024, .f32⟩ : BufTy).Contents (Elt Ideal)) (x4 : (⟨S4096, .f32⟩ : BufTy).Contents (Elt Ideal)) (x5 : (⟨S4096x1024, .f32⟩ : BufTy).Contents (Elt Ideal)) (r : Fin 4096) (q : Fin 1024) :
    val_main_v33 (F := Ideal) x0 x1 x2 x3 x4 x5 (ix2 r q) = Cert.Lstm.cNext x0 x1 x2 x3 x4 x5 r q := by
  rw [val_main_v33_apply, val_main_v31_apply, val_main_v32_apply, gate_f, gate_i, gate_g]
  rfl

/-- The reference's second result is the next cell state. -/
theorem cNext_eq (x0 x1 x2 x3 : (⟨S4096x1024, .f32⟩ : BufTy).Contents (Elt Ideal)) (x4 : (⟨S4096, .f32⟩ : BufTy).Contents (Elt Ideal)) (x5 : (⟨S4096x1024, .f32⟩ : BufTy).Contents (Elt Ideal)) :
    val_main_v33 (F := Ideal) x0 x1 x2 x3 x4 x5 = Cert.Lstm.cNextArr x0 x1 x2 x3 x4 x5 := by
  funext i
  obtain ⟨r, q, rfl⟩ : ∃ (r : Fin 4096) (q : Fin 1024), i = ix2 r q := ⟨i 0, i 1, eq_ix2 i⟩
  exact cNext_at x0 x1 x2 x3 x4 x5 r q

/-- The reference's first result is the next hidden state. -/
theorem hNext_eq (x0 x1 x2 x3 : (⟨S4096x1024, .f32⟩ : BufTy).Contents (Elt Ideal)) (x4 : (⟨S4096, .f32⟩ : BufTy).Contents (Elt Ideal)) (x5 : (⟨S4096x1024, .f32⟩ : BufTy).Contents (Elt Ideal)) :
    val_main_v35 (F := Ideal) x0 x1 x2 x3 x4 x5 = Cert.Lstm.hNextArr x0 x1 x2 x3 x4 x5 := by
  funext i
  obtain ⟨r, q, rfl⟩ : ∃ (r : Fin 4096) (q : Fin 1024), i = ix2 r q := ⟨i 0, i 1, eq_ix2 i⟩
  rw [val_main_v35_apply, val_main_v34_apply, gate_o, cNext_at, Ideal.hostUnary_tanh_def]
  rfl

end Cert.ReferenceIdeal.RefValue

end
-- ==== Proof.KI.Conds.lean ====
/-
  The grid of the LSTM kernel is 16 × 4: point t is batch block t / 4 and gate t % 4. The body has five
  conditionals on the gate coordinate: "gate = g" for g = 0, 1, 2, 3 (store this point's pre-activations into
  column slice g of the 256 × 4096 scratch) and "gate = 3" once more (read the whole scratch and write the two
  output blocks). Here: each condition in closed form over the 64 points; the two output windows idle and not
  written back where gate ≠ 3, live and written back where gate = 3; the staging memrefs the pipeline passes at a
  point; and the region invariant with the scratch as a memref owned at some contents.
-/
import proofs.«168099_j41764261986629_1_alg».proof.Proof.Gen.KernelIdeal.Frame
import proofs.«168099_j41764261986629_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, decided over the grid -/

/-- "gate = 0", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "gate = 1". -/
abbrev cond0_1 (i : grid0.Coords) : Prop := (Scalar.cmpi .ne (Scalar.extui (Scalar.cmpi .eq (BitVec.ofNat 32 (i 1).val) 1#32)) 0#32) = 1#1
theorem hcond0_1 : ∀ t : Fin cfg0.N, cond0_1 (grid0.coords t) ↔ t.val % 4 = 1 :=
  (by decide +kernel : ∀ t : Fin grid0.N, cond0_1 (grid0.coords t) ↔ t.val % 4 = 1)

/-- "gate = 2". -/
abbrev cond0_2 (i : grid0.Coords) : Prop := (Scalar.cmpi .ne (Scalar.extui (Scalar.cmpi .eq (BitVec.ofNat 32 (i 1).val) 2#32)) 0#32) = 1#1
theorem hcond0_2 : ∀ t : Fin cfg0.N, cond0_2 (grid0.coords t) ↔ t.val % 4 = 2 :=
  (by decide +kernel : ∀ t : Fin grid0.N, cond0_2 (grid0.coords t) ↔ t.val % 4 = 2)

/-- "gate = 3", the store of the last slice. -/
abbrev cond0_3 (i : grid0.Coords) : Prop := (Scalar.cmpi .ne (Scalar.extui (Scalar.cmpi .eq (BitVec.ofNat 32 (i 1).val) 3#32)) 0#32) = 1#1
theorem hcond0_3 : ∀ t : Fin cfg0.N, cond0_3 (grid0.coords t) ↔ t.val % 4 = 3 :=
  (by decide +kernel : ∀ t : Fin grid0.N, cond0_3 (grid0.coords t) ↔ t.val % 4 = 3)

/-- "gate = 3" again, the gating of the four slices into the outputs. -/
abbrev cond0_4 (i : grid0.Coords) : Prop := k0_cond5 i = 1#1
theorem hcond0_4 : ∀ t : Fin cfg0.N, cond0_4 (grid0.coords t) ↔ t.val % 4 = 3 :=
  (by decide +kernel : ∀ t : Fin grid0.N, cond0_4 (grid0.coords t) ↔ t.val % 4 = 3)

/-! ## Where the windows are idle, and where the outputs are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-- Where gate ≠ 3 the h' window is idle and its block is not written back. -/
theorem idleAt0_6 : ∀ t : Fin cfg0.N, ¬ t.val % 4 = 3 → cfg0.idle 6 (grid0.coords t) = true := by decide +kernel
theorem noFlush0_6 : ∀ t : Fin cfg0.N, ¬ t.val % 4 = 3 → (cfg0.win 6).flush t = false := by decide +kernel
/-- Where gate = 3 it is live (and written back: Points' `flush0_6`). -/
theorem liveAt0_6 : ∀ t : Fin cfg0.N, t.val % 4 = 3 → cfg0.idle 6 (grid0.coords t) = false := by decide +kernel
/-- The same for the c' window. -/
theorem idleAt0_7 : ∀ t : Fin cfg0.N, ¬ t.val % 4 = 3 → cfg0.idle 7 (grid0.coords t) = true := by decide +kernel
theorem noFlush0_7 : ∀ t : Fin cfg0.N, ¬ t.val % 4 = 3 → (cfg0.win 7).flush t = false := by decide +kernel
theorem liveAt0_7 : ∀ t : Fin cfg0.N, t.val % 4 = 3 → cfg0.idle 7 (grid0.coords t) = false := by decide +kernel

/-! ## The staging memrefs at a point, and the scratch -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)

/-- The scratch that collects the four pre-activation slices of a batch block. -/
abbrev scM0_0 : Memref sig .tc .vmem S256x4096 .f32 := Memref.whole cc0_scratch0

/-- The class's region invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.Data.lean ====
/-
  The pipeline's proof data. Point t = 4·b + g is gate g of batch block b. `partAt t` is the pre-activation block the
  body computes at t from the point's x, h, weight and bias blocks; `scrBlk b` is the 256 × 4096 array of the four gates'
  blocks of batch block b side by side, which is what the scratch holds once the four points of b have run; the h' and c'
  blocks are the gating of `scrBlk b` and the c block. The region invariant before point n says that the scratch holds
  SOME contents whose column slices below gate n % 4 are already those of `scrBlk (n / 4)`: nothing before a batch
  block's first point, everything needed at its last.
-/
import proofs.«168099_j41764261986629_1_alg».proof.Proof.KI.Conds
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The pre-activation block of point `t`. -/
def partAt (c : Dev nD) (t : Fin cfg0.N) : Vec F S256x1024 .f32 :=
  k0_pay1 (iblk m c 0 t) (iblk m c 1 t) (iblk m c 3 t) (iblk m c 4 t) (iblk m c 5 t)

/-- The point of batch block `b`, gate `k`. -/
def ptOf (b : Fin 16) (k : Fin 4) : Fin cfg0.N :=
  ⟨4 * b.val + k.val, by have := b.isLt; have := k.isLt; have h : cfg0.N = 64 := N_0; omega⟩

@[simp] theorem ptOf_val (b : Fin 16) (k : Fin 4) : (ptOf b k).val = 4 * b.val + k.val := rfl

/-- The batch block of point `t`. -/
def blkOf (t : Fin cfg0.N) : Fin 16 := ⟨t.val / 4, by have := t.isLt; have h : cfg0.N = 64 := N_0; omega⟩

@[simp] theorem blkOf_val (t : Fin cfg0.N) : (blkOf t).val = t.val / 4 := rfl

/-- The gate of column `j` of the 4096, and the column within the gate. -/
def gateOf (j : S256x4096.Idx) : Fin 4 := ⟨(j 1).val / 1024, by have := ValueIdx.idx2_lt1 j; omega⟩
def unitOf (j : S256x4096.Idx) : Fin 1024 := ⟨(j 1).val % 1024, Nat.mod_lt _ (by norm_num)⟩
def rowOf (j : S256x4096.Idx) : Fin 256 := ⟨(j 0).val, ValueIdx.idx2_lt0 j⟩

/-- The four gates' pre-activation blocks of batch block `b`, side by side. -/
def scrBlk (c : Dev nD) (b : Fin 16) : Vec F S256x4096 .f32 :=
  fun j => partAt m c (ptOf b (gateOf j)) (ValueIdx.ix2 (rowOf j) (unitOf j))

/-- The next hidden state's block at point `t` (what the body stores where gate = 3). -/
def hOut (c : Dev nD) (t : Fin cfg0.N) : Vec F S256x1024 .f32 := k0_pay7 (scrBlk m c (blkOf t)) (iblk m c 2 t)

/-- The next cell state's block at point `t`. -/
def cOut (c : Dev nD) (t : Fin cfg0.N) : Vec F S256x1024 .f32 := k0_pay6 (scrBlk m c (blkOf t)) (iblk m c 2 t)

/-- Before point `n`: the column slices of gates below `n % 4` hold batch block `n / 4`'s blocks. -/
def Inv (c : Dev nD) (n : ℕ) (X : Vec F S256x4096 .f32) : Prop :=
  ∀ b : Fin 16, b.val = n / 4 → ∀ j : S256x4096.Idx, (j 1).val / 1024 < n % 4 → X j = scrBlk m c b j

/-- Nothing is asked where a batch block begins. -/
theorem Inv_of_mod (c : Dev nD) (n : ℕ) (h : n % 4 = 0) (X : Vec F S256x4096 .f32) : Inv m c n X := by
  intro b _ j hj; rw [h] at hj; exact absurd hj (Nat.not_lt_zero _)

/-- The region invariant before point `n`. -/
def PhiS (c : Dev nD) (n : ℕ) : sProp 𝕄 :=
  iprop((∃ X, ⌜Inv m c n X⌝ ∗ owns (c : Thread nD τ) scM0_0 fullShare X) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hOut m c t
    | ⟨7, _⟩ => cOut m c t
  Φ t := PhiS m c t.val
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hOut m c t := by dsimp only [dats]
theorem after0_7 (c : Dev nD) (t : Fin cfg0.N) : (dats m 0 c).after 7 t = cOut m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.KernelIdeal.Hand

end
-- ==== Proof.KI.RunA.lean ====
/-
  The body at a point of gate 0, run once on any whole staging memrefs: it loads the x, h, weight and bias blocks
  and stores the pre-activation block into column slice 0 of the scratch; nothing else is written. The inputs and the
  two output buffers are handed back as found; the scratch ends as one piece written over the contents it was handed.
-/
import proofs.«168099_j41764261986629_1_alg».proof.Proof.KI.Conds
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the scratch ends with at gate 0 (found by the run), with the body's triple. -/
noncomputable def kernelRun0_A (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x4096 .f32) (harg10 : arg10.IsWhole) (hc0 : cond0_0 i) (hc1 : ¬cond0_1 i) (hc2 : ¬cond0_2 i) (hc3 : ¬cond0_3 i) (hc4 : ¬cond0_4 i)
    (x0 : Vec F S256x1024 .f32) (x1 : Vec F S256x1024 .f32) (x2 : Vec F S256x1024 .f32) (x3 : Vec F S1024x1024 .bf16) (x4 : Vec F S1024x1024 .bf16) (x5 : Vec F S1024 .f32) (y6 : Vec F S256x1024 .f32) (y7 : Vec F S256x1024 .f32) (xs0 : Vec F S256x4096 .f32) :
    { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (arg10.view.loc (c : Thread nD τ) ↦[arg10.view.set]{fullShare} arg10.view.writes (Elt F) (harg10.unread xs0) LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, fun E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]
    · iexists _; isplitr; · ipureintro; exact hf7
      iexact H7
    iexact HS0

end Cert.KernelIdeal.Hand

end
-- ==== Proof.KI.RunB.lean ====
/-
  The body at a point of gate 1, run once on any whole staging memrefs: it loads the x, h, weight and bias blocks
  and stores the pre-activation block into column slice 1 of the scratch; nothing else is written. The inputs and the
  two output buffers are handed back as found; the scratch ends as one piece written over the contents it was handed.
-/
import proofs.«168099_j41764261986629_1_alg».proof.Proof.KI.RunA
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the scratch ends with at gate 1 (found by the run), with the body's triple. -/
noncomputable def kernelRun0_B (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x4096 .f32) (harg10 : arg10.IsWhole) (hc0 : ¬cond0_0 i) (hc1 : cond0_1 i) (hc2 : ¬cond0_2 i) (hc3 : ¬cond0_3 i) (hc4 : ¬cond0_4 i)
    (x0 : Vec F S256x1024 .f32) (x1 : Vec F S256x1024 .f32) (x2 : Vec F S256x1024 .f32) (x3 : Vec F S1024x1024 .bf16) (x4 : Vec F S1024x1024 .bf16) (x5 : Vec F S1024 .f32) (y6 : Vec F S256x1024 .f32) (y7 : Vec F S256x1024 .f32) (xs0 : Vec F S256x4096 .f32) :
    { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (arg10.view.loc (c : Thread nD τ) ↦[arg10.view.set]{fullShare} arg10.view.writes (Elt F) (harg10.unread xs0) LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, fun E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]
    · iexists _; isplitr; · ipureintro; exact hf7
      iexact H7
    iexact HS0

end Cert.KernelIdeal.Hand

end
-- ==== Proof.KI.RunC.lean ====
/-
  The body at a point of gate 2, run once on any whole staging memrefs: it loads the x, h, weight and bias blocks
  and stores the pre-activation block into column slice 2 of the scratch; nothing else is written. The inputs and the
  two output buffers are handed back as found; the scratch ends as one piece written over the contents it was handed.
-/
import proofs.«168099_j41764261986629_1_alg».proof.Proof.KI.RunB
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the scratch ends with at gate 2 (found by the run), with the body's triple. -/
noncomputable def kernelRun0_C (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x4096 .f32) (harg10 : arg10.IsWhole) (hc0 : ¬cond0_0 i) (hc1 : ¬cond0_1 i) (hc2 : cond0_2 i) (hc3 : ¬cond0_3 i) (hc4 : ¬cond0_4 i)
    (x0 : Vec F S256x1024 .f32) (x1 : Vec F S256x1024 .f32) (x2 : Vec F S256x1024 .f32) (x3 : Vec F S1024x1024 .bf16) (x4 : Vec F S1024x1024 .bf16) (x5 : Vec F S1024 .f32) (y6 : Vec F S256x1024 .f32) (y7 : Vec F S256x1024 .f32) (xs0 : Vec F S256x4096 .f32) :
    { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (arg10.view.loc (c : Thread nD τ) ↦[arg10.view.set]{fullShare} arg10.view.writes (Elt F) (harg10.unread xs0) LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, fun E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]
    · iexists _; isplitr; · ipureintro; exact hf7
      iexact H7
    iexact HS0

end Cert.KernelIdeal.Hand

end
-- ==== Proof.KI.RunD.lean ====
/-
  The body at a point of gate 3, run once on any whole staging memrefs: it loads the x, h, weight and bias blocks,
  stores the pre-activation block into column slice 3 of the scratch, then loads the whole scratch and the c block
  and stores h' and c' into the two output buffers. The inputs are handed back as found; each output buffer ends as
  one piece written over whatever it held; the scratch ends as one piece written over the contents it was handed.
-/
import proofs.«168099_j41764261986629_1_alg».proof.Proof.KI.RunC
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces each output buffer and the scratch end with at gate 3 (found by the run), with the body's triple. -/
noncomputable def kernelRun0_D (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x4096 .f32) (harg10 : arg10.IsWhole) (hc0 : ¬cond0_0 i) (hc1 : ¬cond0_1 i) (hc2 : ¬cond0_2 i) (hc3 : cond0_3 i) (hc4 : cond0_4 i)
    (x0 : Vec F S256x1024 .f32) (x1 : Vec F S256x1024 .f32) (x2 : Vec F S256x1024 .f32) (x3 : Vec F S1024x1024 .bf16) (x4 : Vec F S1024x1024 .bf16) (x5 : Vec F S1024 .f32) (xs0 : Vec F S256x4096 .f32) :
    Σ' (L6 : List (View.Piece (Elt F) S256x1024 .f32)) (L7 : List (View.Piece (Elt F) S256x1024 .f32)), { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs0) LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexact HS0

end Cert.KernelIdeal.Hand

end
-- ==== Proof.KI.Pieces.lean ====
/-
  What the runs' pieces read back as. At a point of gate g the scratch ends as the contents it was handed with
  columns [1024·g, 1024·g + 1024) replaced by the point's pre-activation block (`setSlice`); at gate 3 the two output
  buffers end, whatever they held, as h' and c' of that scratch and the c block.
-/
import proofs.«168099_j41764261986629_1_alg».proof.Proof.KI.RunD
import Idealize.ShloMosaic.Lib.WritesUnit
import Idealize.ShloMosaic.Lib.Pipeline.Value
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The 256 × 4096 array `X` with columns [1024·g, 1024·g + 1024) replaced by the 256 × 1024 block `P`. -/
def setSlice (g : ℕ) (P : Vec F S256x1024 .f32) (X : Vec F S256x4096 .f32) : Vec F S256x4096 .f32 :=
  fun j => if h : 1024 * g ≤ (j 1).val ∧ (j 1).val < 1024 * g + 1024 then
      P (ValueIdx.ix2 (⟨(j 0).val, ValueIdx.idx2_lt0 j⟩ : Fin 256) (⟨(j 1).val - 1024 * g, by omega⟩ : Fin 1024))
    else X j

/-- Inside the replaced columns it is the block, -/
theorem setSlice_of_mem (g : ℕ) (P : Vec F S256x1024 .f32) (X : Vec F S256x4096 .f32) (j : S256x4096.Idx)
    (h : 1024 * g ≤ (j 1).val ∧ (j 1).val < 1024 * g + 1024) :
    setSlice g P X j = P (ValueIdx.ix2 (⟨(j 0).val, ValueIdx.idx2_lt0 j⟩ : Fin 256) (⟨(j 1).val - 1024 * g, by omega⟩ : Fin 1024)) := by
  unfold setSlice; rw [dif_pos h]

/-- outside them the array. -/
theorem setSlice_of_not_mem (g : ℕ) (P : Vec F S256x1024 .f32) (X : Vec F S256x4096 .f32) (j : S256x4096.Idx)
    (h : ¬ (1024 * g ≤ (j 1).val ∧ (j 1).val < 1024 * g + 1024)) : setSlice g P X j = X j := by
  unfold setSlice; rw [dif_neg h]

/-- The zero offsets of a rank-2 rectangle, as a constant function. -/
theorem zeros2 : (![0, 0] : Fin 2 → ℕ) = fun _ => 0 := by
  funext a; match a with | ⟨0, _⟩ => rfl | ⟨1, _⟩ => rfl

/-- The zero offset of a rank-1 rectangle, as a constant function. -/
theorem zeros1 : (![0] : Fin 1 → ℕ) = fun _ => 0 := by
  funext a; match a with | ⟨0, _⟩ => rfl

/-- The gate blocks are the pre-activation block itself: the cast to the same shape is the identity. -/
theorem k0_pay2_eq (v0 v2 : Vec F S256x1024 .f32) (v4 v6 : Vec F S1024x1024 .bf16) (v13 : Vec F S1024 .f32) :
    k0_pay2 v0 v2 v4 v6 v13 = k0_pay1 v0 v2 v4 v6 v13 := by
  unfold k0_pay2; exact shapeCast_self _ _

theorem k0_pay3_eq (v0 v2 : Vec F S256x1024 .f32) (v4 v6 : Vec F S1024x1024 .bf16) (v13 : Vec F S1024 .f32) :
    k0_pay3 v0 v2 v4 v6 v13 = k0_pay1 v0 v2 v4 v6 v13 := by
  unfold k0_pay3; exact shapeCast_self _ _

theorem k0_pay4_eq (v0 v2 : Vec F S256x1024 .f32) (v4 v6 : Vec F S1024x1024 .bf16) (v13 : Vec F S1024 .f32) :
    k0_pay4 v0 v2 v4 v6 v13 = k0_pay1 v0 v2 v4 v6 v13 := by
  unfold k0_pay4; exact shapeCast_self _ _

theorem k0_pay5_eq (v0 v2 : Vec F S256x1024 .f32) (v4 v6 : Vec F S1024x1024 .bf16) (v13 : Vec F S1024 .f32) :
    k0_pay5 v0 v2 v4 v6 v13 = k0_pay1 v0 v2 v4 v6 v13 := by
  unfold k0_pay5; exact shapeCast_self _ _

/-- One store of a 256 × 1024 block at columns [o, o + 1024), o = 1024·g, over contents that read as `X`: inside those
columns an element reads the block at the column minus o, elsewhere it reads `X`. -/
theorem read_writes_slice (m : Memref sig .tc .vmem S256x4096 .f32) (hm : m.IsWhole) (g o : ℕ) (ho : o = 1024 * g)
    (inb : ∀ a, (![0, o] : Fin 2 → ℕ) a + S256x1024.size a ≤ S256x4096.size a)
    (P : Vec F S256x1024 .f32) (X : Vec F S256x4096 .f32) :
    m.view.read (Elt F) (m.view.writes (Elt F) (hm.unread X)
        [(⟨Rect.unit (s := S256x4096) ![0, o] S256x1024.size inb, P⟩ : View.Piece (Elt F) S256x4096 .f32)])
      = setSlice g P X := by
  funext j
  have hj0 := ValueIdx.idx2_lt0 j
  have hj1 := ValueIdx.idx2_lt1 j
  by_cases h : 1024 * g ≤ (j 1).val ∧ (j 1).val < 1024 * g + 1024
  · rw [setSlice_of_mem g P X j h]
    exact View.read_writes_cons_unit_of_mem m.view _ inb P [] j _ rfl (Fin.forall_fin_two.mpr ⟨by
      show (j 0).val = 0 + (j 0).val
      omega, by
      show (j 1).val = o + ((j 1).val - 1024 * g)
      omega⟩)
  · rw [setSlice_of_not_mem g P X j h,
      View.read_writes_cons_unit_of_not_mem m.view _ inb P [] j rfl (1 : Fin 2) (by
        show (j 1).val < o ∨ o + 1024 ≤ (j 1).val
        omega),
      View.writes_nil, hm.read_unread]

/-- One store of a whole 256 × 1024 block into a 256 × 1024 buffer leaves the block, whatever the buffer held. -/
theorem read_writes_whole {κ : Kind} {sp : Space} (v : View sig κ sp S256x1024 .f32) (f : v.ty.Contents (Elt F))
    (inb : ∀ a, (![0, 0] : Fin 2 → ℕ) a + S256x1024.size a ≤ S256x1024.size a) (w : Vec F S256x1024 .f32) :
    v.read (Elt F) (v.writes (Elt F) f [(⟨Rect.unit (s := S256x1024) ![0, 0] S256x1024.size inb, w⟩ : View.Piece (Elt F) S256x1024 .f32)])
      = w := by
  funext y
  exact View.read_writes_cons_unit_of_mem v f inb w [] y y rfl
    (Fin.forall_fin_two.mpr ⟨(Nat.zero_add _).symm, (Nat.zero_add _).symm⟩)

variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x4096 .f32) (harg10 : arg10.IsWhole)

/-- Gate 0: the scratch after the body. -/
theorem scratch_A (hc0 : cond0_0 i) (hc1 : ¬cond0_1 i) (hc2 : ¬cond0_2 i) (hc3 : ¬cond0_3 i) (hc4 : ¬cond0_4 i) (x0 : Vec F S256x1024 .f32) (x1 : Vec F S256x1024 .f32) (x2 : Vec F S256x1024 .f32) (x3 : Vec F S1024x1024 .bf16) (x4 : Vec F S1024x1024 .bf16) (x5 : Vec F S1024 .f32) (y6 y7 : Vec F S256x1024 .f32) (xs0 : Vec F S256x4096 .f32) :
    arg10.view.read (Elt F) (arg10.view.writes (Elt F) (harg10.unread xs0) (kernelRun0_A (F := F) c i arg2 harg2 arg3 harg3 arg4 harg4 arg5 harg5 arg6 harg6 arg7 harg7 arg8 harg8 arg9 harg9 arg10 harg10 hc0 hc1 hc2 hc3 hc4 x0 x1 x2 x3 x4 x5 y6 y7 xs0).1)
      = setSlice 0 (k0_pay1 x0 x1 x3 x4 x5) xs0 := by
  unfold kernelRun0_A
  dsimp only
  simp only [View.readAt_eq_ld, harg2.read_unread, harg3.read_unread, harg5.read_unread, harg6.read_unread,
    harg7.read_unread, View.ld_unit_zero (S := S256x1024) zeros2, View.ld_unit_zero (S := S1024x1024) zeros2,
    View.ld_unit_zero (S := S1024) zeros1, k0_pay2_eq]
  exact read_writes_slice arg10 harg10 0 0 rfl _ _ _

/-- Gate 1. -/
theorem scratch_B (hc0 : ¬cond0_0 i) (hc1 : cond0_1 i) (hc2 : ¬cond0_2 i) (hc3 : ¬cond0_3 i) (hc4 : ¬cond0_4 i) (x0 : Vec F S256x1024 .f32) (x1 : Vec F S256x1024 .f32) (x2 : Vec F S256x1024 .f32) (x3 : Vec F S1024x1024 .bf16) (x4 : Vec F S1024x1024 .bf16) (x5 : Vec F S1024 .f32) (y6 y7 : Vec F S256x1024 .f32) (xs0 : Vec F S256x4096 .f32) :
    arg10.view.read (Elt F) (arg10.view.writes (Elt F) (harg10.unread xs0) (kernelRun0_B (F := F) c i arg2 harg2 arg3 harg3 arg4 harg4 arg5 harg5 arg6 harg6 arg7 harg7 arg8 harg8 arg9 harg9 arg10 harg10 hc0 hc1 hc2 hc3 hc4 x0 x1 x2 x3 x4 x5 y6 y7 xs0).1)
      = setSlice 1 (k0_pay1 x0 x1 x3 x4 x5) xs0 := by
  unfold kernelRun0_B
  dsimp only
  simp only [View.readAt_eq_ld, harg2.read_unread, harg3.read_unread, harg5.read_unread, harg6.read_unread,
    harg7.read_unread, View.ld_unit_zero (S := S256x1024) zeros2, View.ld_unit_zero (S := S1024x1024) zeros2,
    View.ld_unit_zero (S := S1024) zeros1, k0_pay3_eq]
  exact read_writes_slice arg10 harg10 1 1024 rfl _ _ _

/-- Gate 2. -/
theorem scratch_C (hc0 : ¬cond0_0 i) (hc1 : ¬cond0_1 i) (hc2 : cond0_2 i) (hc3 : ¬cond0_3 i) (hc4 : ¬cond0_4 i) (x0 : Vec F S256x1024 .f32) (x1 : Vec F S256x1024 .f32) (x2 : Vec F S256x1024 .f32) (x3 : Vec F S1024x1024 .bf16) (x4 : Vec F S1024x1024 .bf16) (x5 : Vec F S1024 .f32) (y6 y7 : Vec F S256x1024 .f32) (xs0 : Vec F S256x4096 .f32) :
    arg10.view.read (Elt F) (arg10.view.writes (Elt F) (harg10.unread xs0) (kernelRun0_C (F := F) c i arg2 harg2 arg3 harg3 arg4 harg4 arg5 harg5 arg6 harg6 arg7 harg7 arg8 harg8 arg9 harg9 arg10 harg10 hc0 hc1 hc2 hc3 hc4 x0 x1 x2 x3 x4 x5 y6 y7 xs0).1)
      = setSlice 2 (k0_pay1 x0 x1 x3 x4 x5) xs0 := by
  unfold kernelRun0_C
  dsimp only
  simp only [View.readAt_eq_ld, harg2.read_unread, harg3.read_unread, harg5.read_unread, harg6.read_unread,
    harg7.read_unread, View.ld_unit_zero (S := S256x1024) zeros2, View.ld_unit_zero (S := S1024x1024) zeros2,
    View.ld_unit_zero (S := S1024) zeros1, k0_pay4_eq]
  exact read_writes_slice arg10 harg10 2 2048 rfl _ _ _

/-- Gate 3: the scratch after the body, -/
theorem scratch_D (hc0 : ¬cond0_0 i) (hc1 : ¬cond0_1 i) (hc2 : ¬cond0_2 i) (hc3 : cond0_3 i) (hc4 : cond0_4 i) (x0 : Vec F S256x1024 .f32) (x1 : Vec F S256x1024 .f32) (x2 : Vec F S256x1024 .f32) (x3 : Vec F S1024x1024 .bf16) (x4 : Vec F S1024x1024 .bf16) (x5 : Vec F S1024 .f32) (xs0 : Vec F S256x4096 .f32) :
    arg10.view.read (Elt F) (arg10.view.writes (Elt F) (harg10.unread xs0) (kernelRun0_D (F := F) c i arg2 harg2 arg3 harg3 arg4 harg4 arg5 harg5 arg6 harg6 arg7 harg7 arg8 harg8 arg9 harg9 arg10 harg10 hc0 hc1 hc2 hc3 hc4 x0 x1 x2 x3 x4 x5 xs0).2.2.1)
      = setSlice 3 (k0_pay1 x0 x1 x3 x4 x5) xs0 := by
  unfold kernelRun0_D
  dsimp only
  sl_unfold_words
  simp only [View.readAt_eq_ld, harg2.read_unread, harg3.read_unread, harg4.read_unread, harg5.read_unread,
    harg6.read_unread, harg7.read_unread, View.ld_unit_zero (S := S256x1024) zeros2,
    View.ld_unit_zero (S := S1024x1024) zeros2, View.ld_unit_zero (S := S1024) zeros1,
    View.ld_unit_zero (S := S256x4096) zeros2, k0_pay5_eq]
  exact read_writes_slice arg10 harg10 3 3072 rfl _ _ _

/-- the h' buffer, over whatever it held, -/
theorem out6_D (hc0 : ¬cond0_0 i) (hc1 : ¬cond0_1 i) (hc2 : ¬cond0_2 i) (hc3 : cond0_3 i) (hc4 : cond0_4 i) (x0 : Vec F S256x1024 .f32) (x1 : Vec F S256x1024 .f32) (x2 : Vec F S256x1024 .f32) (x3 : Vec F S1024x1024 .bf16) (x4 : Vec F S1024x1024 .bf16) (x5 : Vec F S1024 .f32) (xs0 : Vec F S256x4096 .f32) (f : arg8.view.ty.Contents (Elt F)) :
    arg8.view.read (Elt F) (arg8.view.writes (Elt F) f (kernelRun0_D (F := F) c i arg2 harg2 arg3 harg3 arg4 harg4 arg5 harg5 arg6 harg6 arg7 harg7 arg8 harg8 arg9 harg9 arg10 harg10 hc0 hc1 hc2 hc3 hc4 x0 x1 x2 x3 x4 x5 xs0).1)
      = k0_pay7 (setSlice 3 (k0_pay1 x0 x1 x3 x4 x5) xs0) x2 := by
  unfold kernelRun0_D
  dsimp only
  sl_unfold_words
  simp only [View.readAt_eq_ld, harg2.read_unread, harg3.read_unread, harg4.read_unread, harg5.read_unread,
    harg6.read_unread, harg7.read_unread, View.ld_unit_zero (S := S256x1024) zeros2,
    View.ld_unit_zero (S := S1024x1024) zeros2, View.ld_unit_zero (S := S1024) zeros1,
    View.ld_unit_zero (S := S256x4096) zeros2, k0_pay5_eq]
  refine (read_writes_whole arg8.view f _ _).trans ?_
  rw [read_writes_slice arg10 harg10 3 3072 rfl]

/-- and the c' buffer. -/
theorem out7_D (hc0 : ¬cond0_0 i) (hc1 : ¬cond0_1 i) (hc2 : ¬cond0_2 i) (hc3 : cond0_3 i) (hc4 : cond0_4 i) (x0 : Vec F S256x1024 .f32) (x1 : Vec F S256x1024 .f32) (x2 : Vec F S256x1024 .f32) (x3 : Vec F S1024x1024 .bf16) (x4 : Vec F S1024x1024 .bf16) (x5 : Vec F S1024 .f32) (xs0 : Vec F S256x4096 .f32) (f : arg9.view.ty.Contents (Elt F)) :
    arg9.view.read (Elt F) (arg9.view.writes (Elt F) f (kernelRun0_D (F := F) c i arg2 harg2 arg3 harg3 arg4 harg4 arg5 harg5 arg6 harg6 arg7 harg7 arg8 harg8 arg9 harg9 arg10 harg10 hc0 hc1 hc2 hc3 hc4 x0 x1 x2 x3 x4 x5 xs0).2.1)
      = k0_pay6 (setSlice 3 (k0_pay1 x0 x1 x3 x4 x5) xs0) x2 := by
  unfold kernelRun0_D
  dsimp only
  sl_unfold_words
  simp only [View.readAt_eq_ld, harg2.read_unread, harg3.read_unread, harg4.read_unread, harg5.read_unread,
    harg6.read_unread, harg7.read_unread, View.ld_unit_zero (S := S256x1024) zeros2,
    View.ld_unit_zero (S := S1024x1024) zeros2, View.ld_unit_zero (S := S1024) zeros1,
    View.ld_unit_zero (S := S256x4096) zeros2, k0_pay5_eq]
  refine (read_writes_whole arg9.view f _ _).trans ?_
  rw [read_writes_slice arg10 harg10 3 3072 rfl]

end Cert.KernelIdeal.Hand

end
-- ==== Proof.KI.Body.lean ====
/-
  The body obligation and the run. At a point of gate g < 3 the body stores the point's pre-activation block into column
  slice g of the scratch and keeps the slices below it, so the invariant moves from gate g to gate g + 1; at gate 3 the
  scratch then holds the batch block's four blocks, the two output buffers are stored with their gating, and the next
  batch block starts with nothing asked. The inputs' buffers are handed back as found; an output's buffer is handed back
  untouched where gate ≠ 3 (the window is idle there and not written back).
-/
import proofs.«168099_j41764261986629_1_alg».proof.Proof.KI.Data
import proofs.«168099_j41764261986629_1_alg».proof.Proof.KI.Pieces
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant, one point on -/

/-- Storing point `t`'s block into slice `g = t % 4 < 3` of contents that satisfy the invariant before `t` gives contents
    that satisfy it before `t + 1`: the new slice is this point's block, the lower ones are kept. -/
theorem Inv_step (c : Dev nD) (t : Fin cfg0.N) (g : ℕ) (hg : t.val % 4 = g) (hg3 : g < 3) (X : Vec F S256x4096 .f32)
    (hX : Inv m c t.val X) : Inv m c (t.val + 1) (setSlice g (partAt m c t) X) := by
  intro b hb j hj
  have hj1 := ValueIdx.idx2_lt1 j
  by_cases hm : (j 1).val / 1024 = g
  · have hin : 1024 * g ≤ (j 1).val ∧ (j 1).val < 1024 * g + 1024 := by omega
    rw [setSlice_of_mem g _ X j hin]
    have e1 : ptOf b (gateOf j) = t := Fin.ext (by simp only [ptOf_val, gateOf]; omega)
    have e2 : (⟨(j 1).val - 1024 * g, by omega⟩ : Fin 1024) = unitOf j := Fin.ext (by simp only [unitOf]; omega)
    unfold scrBlk
    rw [e1, e2]
    rfl
  · rw [setSlice_of_not_mem g _ X j (by omega)]
    exact hX b (by omega) j (by omega)

/-- Storing the last gate's block completes the batch block's four. -/
theorem scr_full (c : Dev nD) (t : Fin cfg0.N) (h3 : t.val % 4 = 3) (X : Vec F S256x4096 .f32) (hX : Inv m c t.val X) :
    setSlice 3 (partAt m c t) X = scrBlk m c (blkOf t) := by
  funext j
  have hj1 := ValueIdx.idx2_lt1 j
  by_cases hm : (j 1).val / 1024 = 3
  · have hin : 1024 * 3 ≤ (j 1).val ∧ (j 1).val < 1024 * 3 + 1024 := by omega
    rw [setSlice_of_mem 3 _ X j hin]
    have e1 : ptOf (blkOf t) (gateOf j) = t := Fin.ext (by simp only [ptOf_val, blkOf_val, gateOf]; omega)
    have e2 : (⟨(j 1).val - 1024 * 3, by omega⟩ : Fin 1024) = unitOf j := Fin.ext (by simp only [unitOf]; omega)
    unfold scrBlk
    rw [e1, e2]
    rfl
  · rw [setSlice_of_not_mem 3 _ X j (by omega)]
    exact hX (blkOf t) rfl j (by omega)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at a point of gate 0: slice 0 is stored, the slices below it kept. -/
theorem sound_A (c : Dev nD) (t : Fin cfg0.N) (h : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [Phi_eq m c t.succ, Phi_eq m c t.castSucc, Fin.val_succ, Fin.coe_castSucc]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (by omega)) (noFlush0_6 t (by omega))]
  rw [Dat.leavesExact_idle (dats m 0 c) 7 t (idleAt0_7 t (by omega)) (noFlush0_7 t (by omega))]
  iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A (F := F) c (grid0.coords t) _ _ _ _ _ _ _ _ _ _ _ _ _ _ _ _ _ _ ((hcond0_0 t).mpr h) (fun hh => by have := (hcond0_1 t).mp hh; omega) (fun hh => by have := (hcond0_2 t).mp hh; omega) (fun hh => by have := (hcond0_3 t).mp hh; omega) (fun hh => by have := (hcond0_4 t).mp hh; omega) (iblk m c 0 t) (iblk m c 1 t) (iblk m c 2 t) (iblk m c 3 t) (iblk m c 4 t) (iblk m c 5 t) ((dats m 0 c).before 6 t d6) ((dats m 0 c).before 7 t d7) X).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexists (setSlice 0 (k0_pay1 (iblk m c 0 t) (iblk m c 1 t) (iblk m c 3 t) (iblk m c 4 t) (iblk m c 5 t)) X)
      isplitr
      · ipureintro; exact Inv_step m c t 0 h (by omega) X hX
      · unfold owns; iexists _; isplitr
        swap; · iexact HS0
        ipureintro; exact scratch_A c _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The body at a point of gate 1: slice 1 is stored, the slices below it kept. -/
theorem sound_B (c : Dev nD) (t : Fin cfg0.N) (h : t.val % 4 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [Phi_eq m c t.succ, Phi_eq m c t.castSucc, Fin.val_succ, Fin.coe_castSucc]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (by omega)) (noFlush0_6 t (by omega))]
  rw [Dat.leavesExact_idle (dats m 0 c) 7 t (idleAt0_7 t (by omega)) (noFlush0_7 t (by omega))]
  iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B (F := F) c (grid0.coords t) _ _ _ _ _ _ _ _ _ _ _ _ _ _ _ _ _ _ (fun hh => by have := (hcond0_0 t).mp hh; omega) ((hcond0_1 t).mpr h) (fun hh => by have := (hcond0_2 t).mp hh; omega) (fun hh => by have := (hcond0_3 t).mp hh; omega) (fun hh => by have := (hcond0_4 t).mp hh; omega) (iblk m c 0 t) (iblk m c 1 t) (iblk m c 2 t) (iblk m c 3 t) (iblk m c 4 t) (iblk m c 5 t) ((dats m 0 c).before 6 t d6) ((dats m 0 c).before 7 t d7) X).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexists (setSlice 1 (k0_pay1 (iblk m c 0 t) (iblk m c 1 t) (iblk m c 3 t) (iblk m c 4 t) (iblk m c 5 t)) X)
      isplitr
      · ipureintro; exact Inv_step m c t 1 h (by omega) X hX
      · unfold owns; iexists _; isplitr
        swap; · iexact HS0
        ipureintro; exact scratch_B c _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The body at a point of gate 2: slice 2 is stored, the slices below it kept. -/
theorem sound_C (c : Dev nD) (t : Fin cfg0.N) (h : t.val % 4 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [Phi_eq m c t.succ, Phi_eq m c t.castSucc, Fin.val_succ, Fin.coe_castSucc]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (by omega)) (noFlush0_6 t (by omega))]
  rw [Dat.leavesExact_idle (dats m 0 c) 7 t (idleAt0_7 t (by omega)) (noFlush0_7 t (by omega))]
  iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C (F := F) c (grid0.coords t) _ _ _ _ _ _ _ _ _ _ _ _ _ _ _ _ _ _ (fun hh => by have := (hcond0_0 t).mp hh; omega) (fun hh => by have := (hcond0_1 t).mp hh; omega) ((hcond0_2 t).mpr h) (fun hh => by have := (hcond0_3 t).mp hh; omega) (fun hh => by have := (hcond0_4 t).mp hh; omega) (iblk m c 0 t) (iblk m c 1 t) (iblk m c 2 t) (iblk m c 3 t) (iblk m c 4 t) (iblk m c 5 t) ((dats m 0 c).before 6 t d6) ((dats m 0 c).before 7 t d7) X).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexists (setSlice 2 (k0_pay1 (iblk m c 0 t) (iblk m c 1 t) (iblk m c 3 t) (iblk m c 4 t) (iblk m c 5 t)) X)
      isplitr
      · ipureintro; exact Inv_step m c t 2 h (by omega) X hX
      · unfold owns; iexists _; isplitr
        swap; · iexact HS0
        ipureintro; exact scratch_C c _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The body at a point of gate 3: the last slice is stored, the scratch then holds the batch block's four blocks, and the outputs are their gating. -/
theorem sound_D (c : Dev nD) (t : Fin cfg0.N) (h : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [Phi_eq m c t.succ, Phi_eq m c t.castSucc, Fin.val_succ, Fin.coe_castSucc]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t h], after0_6]
  rw [show (dats m 0 c).leavesExact 7 t = owns (c : Thread nD τ) (ms0_7 t) fullShare ((dats m 0 c).after 7 t) from by
    unfold Dat.leavesExact; rw [liveAt0_7 t h], after0_7]
  iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_D (F := F) c (grid0.coords t) _ _ _ _ _ _ _ _ _ _ _ _ _ _ _ _ _ _ (fun hh => by have := (hcond0_0 t).mp hh; omega) (fun hh => by have := (hcond0_1 t).mp hh; omega) (fun hh => by have := (hcond0_2 t).mp hh; omega) ((hcond0_3 t).mpr h) ((hcond0_4 t).mpr h) (iblk m c 0 t) (iblk m c 1 t) (iblk m c 2 t) (iblk m c 3 t) (iblk m c 4 t) (iblk m c 5 t) X).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, ⟨%e6, H6⟩, ⟨%e7, H7⟩, HS0⟩
  isplitl [HS0 Hg]
  · isplitl [HS0]
    · iexists (setSlice 3 (k0_pay1 (iblk m c 0 t) (iblk m c 1 t) (iblk m c 3 t) (iblk m c 4 t) (iblk m c 5 t)) X)
      isplitr
      · ipureintro; exact Inv_of_mod m c (t.val + 1) (by omega) _
      · unfold owns; iexists _; isplitr
        swap; · iexact HS0
        ipureintro; exact scratch_D c _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (out6_D c _ _ _ _ _ _ _ _ _ _ _ _ _ _ _ _ _ _ _ _ _ _ _ _ _ _ _ _ _ _ _ e6).trans (congrArg (fun S => k0_pay7 S (iblk m c 2 t)) (scr_full m c t h X hX))
  unfold owns; iexists _; isplitr
  swap; · iexact H7
  ipureintro
  exact (out7_D c _ _ _ _ _ _ _ _ _ _ _ _ _ _ _ _ _ _ _ _ _ _ _ _ _ _ _ _ _ _ _ e7).trans (congrArg (fun S => k0_pay6 S (iblk m c 2 t)) (scr_full m c t h X hX))

/-- The body at any point: by the gate. -/
theorem sound_body (c : Dev nD) (t : Fin cfg0.N) :
    bodyPre m c t ⊢ wp frame (wpE (defs₀ (F := F)) Variants.none c none) Set.univ (bodyAt0 t) (fun _ => bodyPost m c t) := by
  have hg : t.val % 4 = 0 ∨ t.val % 4 = 1 ∨ t.val % 4 = 2 ∨ t.val % 4 = 3 := by omega
  rcases hg with h | h | h | h
  · exact sound_A m c t h
  · exact sound_B m c t h
  · exact sound_C m c t h
  · exact sound_D m c t h

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the scratch there. -/
theorem hin (c : Dev nD) : Pipeline.ΦA spec0 c ⊢ (dats m 0 c).Φ 0 := by
  rw [Phi_eq m c 0, PhiA0_eq]
  unfold PhiS
  iintro ⟨⟨%d, HS0⟩, Hg⟩
  isplitl [HS0]
  · iexists d; isplitr
    · ipureintro; exact Inv_of_mod m c _ rfl d
    · iexact HS0
  iexact Hg

/-- After the last point the invariant gives the class's back: what the scratch holds is forgotten. -/
theorem hout (c : Dev nD) : (dats m 0 c).Φ (Fin.last cfg0.N) ⊢ Pipeline.ΦA spec0 c := by
  rw [Phi_eq m c (Fin.last cfg0.N), PhiA0_eq]
  unfold PhiS
  iintro ⟨⟨%X, %hX, HS0⟩, Hg⟩
  isplitl [HS0]
  · iexists X; iexact HS0
  iexact Hg

/-! ## The run and the frame -/

set_option backward.isDefEq.respectTransparency.types false in
/-- Every weakly fair execution of @main terminates, every array of the pipeline at what the library computes from the proof
    data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KI.Full.lean ====
/-
  One run of the kernel's program, read at both result arrays and at the six argument arrays: the results hold what the
  library computes from the proof data's write-backs, the arguments what they held at launch.
-/
import proofs.«168099_j41764261986629_1_alg».proof.Proof.KI.Body
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_full : θ_run defs (onTc (τ := τ) (main (F := F))) ⟨m, fun _ => 0, ρ⟩ (fun r => ∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c)⟩) (run_main m ρ)

end Cert.KernelIdeal.Hand

end
-- ==== Proof.KI.Blocks.lean ====
/-
  Each window's block at a point, read off the argument arrays, at the extended reals. Point t is batch block t / 4, gate
  t % 4. The x, h and c windows take row block t / 4 of their arrays: entry (r, k) of the block is entry
  (256·(t/4) + r, k) of the array. The two weight windows take row block t % 4 of the weight arrays as the host left them
  after the change of float format, which is the identity here: entry (q, k) of the block is entry (1024·(t%4) + q, k) of
  the weight argument. The bias window takes block t % 4: entry q of the block is entry 1024·(t%4) + q of the bias.
-/
import proofs.«168099_j41764261986629_1_alg».proof.Proof.KI.Data
import Idealize.ShloMosaic.Lib.Pipeline.Value
import Idealize.ShloMosaic.Lib.StableHlo.Run
import Idealize.ShloMosaic.Lib.ValueIdx

set_option maxRecDepth 16384

noncomputable section

namespace Cert.KernelIdeal.OutValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The blocks at a point, each named at its literal type. -/
abbrev xblk (c : Dev nD) (t : Fin cfg0.N) : Vec Ideal S256x1024 .f32 := iblk m c 0 t
abbrev hblk (c : Dev nD) (t : Fin cfg0.N) : Vec Ideal S256x1024 .f32 := iblk m c 1 t
abbrev cblk (c : Dev nD) (t : Fin cfg0.N) : Vec Ideal S256x1024 .f32 := iblk m c 2 t
abbrev whblk (c : Dev nD) (t : Fin cfg0.N) : Vec Ideal S1024x1024 .bf16 := iblk m c 3 t
abbrev wxblk (c : Dev nD) (t : Fin cfg0.N) : Vec Ideal S1024x1024 .bf16 := iblk m c 4 t
abbrev bblk (c : Dev nD) (t : Fin cfg0.N) : Vec Ideal S1024 .f32 := iblk m c 5 t

/-- Row `r` of batch block `t / 4` among the 4096 rows. -/
abbrev brow (t : Fin cfg0.N) (r : Fin 256) : Fin 4096 :=
  ⟨256 * (t.val / 4) + r.val, by have := t.isLt; have h : cfg0.N = 64 := N_0; have := r.isLt; omega⟩

/-- Row (or entry) `q` of gate block `t % 4` among the 4096. -/
abbrev grow (t : Fin cfg0.N) (q : Fin 1024) : Fin 4096 :=
  ⟨1024 * (t.val % 4) + q.val, by have := q.isLt; omega⟩

/-- The printed index maps, decided once over the grid: the x, h and c windows take row block t / 4, the weight and bias
windows block t % 4, and every column block is 0. -/
theorem idx_facts : ∀ t : Fin cfg0.N,
    win0_0.index t (0 : Fin 2) = t.val / 4 ∧ win0_0.index t (1 : Fin 2) = 0
    ∧ win0_1.index t (0 : Fin 2) = t.val / 4 ∧ win0_1.index t (1 : Fin 2) = 0
    ∧ win0_2.index t (0 : Fin 2) = t.val / 4 ∧ win0_2.index t (1 : Fin 2) = 0
    ∧ win0_3.index t (0 : Fin 2) = t.val % 4 ∧ win0_3.index t (1 : Fin 2) = 0
    ∧ win0_4.index t (0 : Fin 2) = t.val % 4 ∧ win0_4.index t (1 : Fin 2) = 0
    ∧ win0_5.index t (0 : Fin 1) = t.val % 4 :=
  (by decide +kernel : ∀ t : Fin grid0.N, _)

/-- The first weight array as the region finds it: the host's change of float format is the identity here. -/
theorem V_wh (c : Dev nD) :
    (V m c main_call0_v0 : S4096x1024.Idx → EReal) = (m ((c.tc : Thread nD τ).loc main_arg3) : S4096x1024.Idx → EReal) := by
  dsimp only [Gen.V, Gen.hostOps0]; after_results; rfl

/-- The second weight array as the region finds it. -/
theorem V_wx (c : Dev nD) :
    (V m c main_call0_v1 : S4096x1024.Idx → EReal) = (m ((c.tc : Thread nD τ).loc main_arg5) : S4096x1024.Idx → EReal) := by
  dsimp only [Gen.V, Gen.hostOps0]; after_results; rfl

theorem xblk_apply (c : Dev nD) (t : Fin cfg0.N) (r : Fin 256) (k : Fin 1024) :
    (xblk m c t (ix2 r k) : EReal) = (m ((c.tc : Thread nD τ).loc main_arg0)) (ix2 (brow t r) k) := by
  obtain ⟨e00, e01, e10, e11, e20, e21, e30, e31, e40, e41, e50⟩ := idx_facts t
  refine Eq.trans ?_ (congrFun (V_main_arg0 m c) (ix2 (brow t r) k))
  show V m c main_arg0 (((cfg0.win 0).blk t).view.emb (ix2 r k)) = V m c main_arg0 (ix2 (brow t r) k)
  refine congrArg (V m c main_arg0) ?_
  funext a; apply Fin.ext
  match a with
  | ⟨0, _⟩ => show win0_0.index t (0 : Fin 2) * 256 + 1 * r.val = 256 * (t.val / 4) + r.val; omega
  | ⟨1, _⟩ => show win0_0.index t (1 : Fin 2) * 1024 + 1 * k.val = k.val; omega

theorem hblk_apply (c : Dev nD) (t : Fin cfg0.N) (r : Fin 256) (k : Fin 1024) :
    (hblk m c t (ix2 r k) : EReal) = (m ((c.tc : Thread nD τ).loc main_arg1)) (ix2 (brow t r) k) := by
  obtain ⟨e00, e01, e10, e11, e20, e21, e30, e31, e40, e41, e50⟩ := idx_facts t
  refine Eq.trans ?_ (congrFun (V_main_arg1 m c) (ix2 (brow t r) k))
  show V m c main_arg1 (((cfg0.win 1).blk t).view.emb (ix2 r k)) = V m c main_arg1 (ix2 (brow t r) k)
  refine congrArg (V m c main_arg1) ?_
  funext a; apply Fin.ext
  match a with
  | ⟨0, _⟩ => show win0_1.index t (0 : Fin 2) * 256 + 1 * r.val = 256 * (t.val / 4) + r.val; omega
  | ⟨1, _⟩ => show win0_1.index t (1 : Fin 2) * 1024 + 1 * k.val = k.val; omega

theorem cblk_apply (c : Dev nD) (t : Fin cfg0.N) (r : Fin 256) (k : Fin 1024) :
    (cblk m c t (ix2 r k) : EReal) = (m ((c.tc : Thread nD τ).loc main_arg2)) (ix2 (brow t r) k) := by
  obtain ⟨e00, e01, e10, e11, e20, e21, e30, e31, e40, e41, e50⟩ := idx_facts t
  refine Eq.trans ?_ (congrFun (V_main_arg2 m c) (ix2 (brow t r) k))
  show V m c main_arg2 (((cfg0.win 2).blk t).view.emb (ix2 r k)) = V m c main_arg2 (ix2 (brow t r) k)
  refine congrArg (V m c main_arg2) ?_
  funext a; apply Fin.ext
  match a with
  | ⟨0, _⟩ => show win0_2.index t (0 : Fin 2) * 256 + 1 * r.val = 256 * (t.val / 4) + r.val; omega
  | ⟨1, _⟩ => show win0_2.index t (1 : Fin 2) * 1024 + 1 * k.val = k.val; omega

theorem whblk_apply (c : Dev nD) (t : Fin cfg0.N) (q : Fin 1024) (k : Fin 1024) :
    (whblk m c t (ix2 q k) : EReal) = (m ((c.tc : Thread nD τ).loc main_arg3)) (ix2 (grow t q) k) := by
  obtain ⟨e00, e01, e10, e11, e20, e21, e30, e31, e40, e41, e50⟩ := idx_facts t
  refine Eq.trans ?_ (congrFun (V_wh m c) (ix2 (grow t q) k))
  show (V m c main_call0_v0 : S4096x1024.Idx → EReal) (((cfg0.win 3).blk t).view.emb (ix2 q k)) = (V m c main_call0_v0 : S4096x1024.Idx → EReal) (ix2 (grow t q) k)
  refine congrArg (V m c main_call0_v0 : S4096x1024.Idx → EReal) ?_
  funext a; apply Fin.ext
  match a with
  | ⟨0, _⟩ => show win0_3.index t (0 : Fin 2) * 1024 + 1 * q.val = 1024 * (t.val % 4) + q.val; omega
  | ⟨1, _⟩ => show win0_3.index t (1 : Fin 2) * 1024 + 1 * k.val = k.val; omega

theorem wxblk_apply (c : Dev nD) (t : Fin cfg0.N) (q : Fin 1024) (k : Fin 1024) :
    (wxblk m c t (ix2 q k) : EReal) = (m ((c.tc : Thread nD τ).loc main_arg5)) (ix2 (grow t q) k) := by
  obtain ⟨e00, e01, e10, e11, e20, e21, e30, e31, e40, e41, e50⟩ := idx_facts t
  refine Eq.trans ?_ (congrFun (V_wx m c) (ix2 (grow t q) k))
  show (V m c main_call0_v1 : S4096x1024.Idx → EReal) (((cfg0.win 4).blk t).view.emb (ix2 q k)) = (V m c main_call0_v1 : S4096x1024.Idx → EReal) (ix2 (grow t q) k)
  refine congrArg (V m c main_call0_v1 : S4096x1024.Idx → EReal) ?_
  funext a; apply Fin.ext
  match a with
  | ⟨0, _⟩ => show win0_4.index t (0 : Fin 2) * 1024 + 1 * q.val = 1024 * (t.val % 4) + q.val; omega
  | ⟨1, _⟩ => show win0_4.index t (1 : Fin 2) * 1024 + 1 * k.val = k.val; omega

theorem bblk_apply (c : Dev nD) (t : Fin cfg0.N) (q : Fin 1024) :
    (bblk m c t (ix1 q) : EReal) = (m ((c.tc : Thread nD τ).loc main_arg4)) (ix1 (grow t q)) := by
  obtain ⟨e00, e01, e10, e11, e20, e21, e30, e31, e40, e41, e50⟩ := idx_facts t
  refine Eq.trans ?_ (congrFun (V_main_arg4 m c) (ix1 (grow t q)))
  show V m c main_arg4 (((cfg0.win 5).blk t).view.emb (ix1 q)) = V m c main_arg4 (ix1 (grow t q))
  refine congrArg (V m c main_arg4) ?_
  funext a; apply Fin.ext
  match a with
  | ⟨0, _⟩ => show win0_5.index t (0 : Fin 1) * 1024 + 1 * q.val = 1024 * (t.val % 4) + q.val; omega

end Cert.KernelIdeal.OutValue

end
-- ==== Proof.KI.PayValue.lean ====
/-
  The body's arithmetic at an index, over the extended reals. With the blocks x, h (256 × 1024), the weight blocks
  Wh, Wx (1024 × 1024: the gate's 1024 rows of the 4096) and the gate's 1024 biases b, the pre-activation block is
      pre[r, q] = (∑ₖ h[r,k]·Wh[q,k] + ∑ₖ x[r,k]·Wx[q,k]) + b[q]
  (the kernel transposes each weight block and multiplies into a zero accumulator: the transposed block read at (k, q)
  is the block at (q, k); a change of float format is the identity). Of the 256 × 4096 array S of the four gates'
  pre-activations side by side and the block c:
      c'[r, q] = σ(S[r, 1024 + q])·c[r, q] + σ(S[r, q])·tanh(S[r, 2048 + q]),   h'[r, q] = σ(S[r, 3072 + q])·tanh(c'[r, q]).
-/
import proofs.«168099_j41764261986629_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.PayValue

open Idealize.ShloMosaic Idealize.ShloMosaic.ValueIdx Cert.KernelIdeal Cert.KernelIdeal.Gen

/-- Column `1024·g + q` of the 4096. -/
abbrev gcol (g : Fin 4) (q : Fin 1024) : Fin 4096 := ⟨1024 * g.val + q.val, by have := g.isLt; have := q.isLt; omega⟩

/-! ## The contraction's operand indices, axis by axis -/

theorem lhs_dot_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_dot_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_dot_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_dot_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product into the zero accumulator at row `r`, column `q`: the sum over the contraction coordinate `k` of the left
    operand at `(r, k)` times the right operand at `(k, q)`. -/
theorem matmul_zero_apply (a : FVec Ideal S256x1024 .bf16) (b : FVec Ideal S1024x1024 .bf16) (r : Fin 256) (q : Fin 1024) :
    (matmul dot_S256x1024_S1024x1024_S256x1024_1_0_0_1_n_n none a b (constant (F := Ideal) S256x1024 .f32 0x00000000#32) (ix2 r q) : EReal)
      = ∑ k : Fin 1024, (a (ix2 r k) : EReal) * (b (ix2 k q) : EReal) := by
  refine (Ideal.matmul_constant_zero_apply dot_S256x1024_S1024x1024_S256x1024_1_0_0_1_n_n none a b (ix2 r q)).trans ?_
  rw [← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 r q) ((ValueIdx.contrEquiv1 dot_S256x1024_S1024x1024_S256x1024_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S256x1024_S1024x1024_S256x1024_1_0_0_1_n_n.rhsIdx (ix2 r q) ((ValueIdx.contrEquiv1 dot_S256x1024_S1024x1024_S256x1024_1_0_0_1_n_n 1024 rfl rfl).symm k) = ix2 k q := funext fun a => Fin.ext (by
    match a with
    | ⟨0, _⟩ => exact (rhs_dot_0 _ _).trans hk
    | ⟨1, _⟩ => exact rhs_dot_1 _ _)
  rw [el, er]

/-- The transposed weight block at `(k, q)` is the block at `(q, k)`; the cast to its own shape changes nothing. -/
theorem weightT_apply (w : Vec Ideal S1024x1024 .bf16) (k q : Fin 1024) :
    (transpose S1024x1024 [1, 0] (shapeCast S1024x1024 w Facts₀.shapeCasts_S1024x1024_S1024x1024) Facts₀.transposes_S1024x1024_p1_0_S1024x1024 (ix2 k q) : EReal)
      = (w (ix2 q k) : EReal) := by
  rw [shapeCast_self]
  exact transpose_apply [1, 0] w Facts₀.transposes_S1024x1024_p1_0_S1024x1024 (ix2 k q) (ix2 q k) (fun b => match b with
    | ⟨0, _⟩ => rfl
    | ⟨1, _⟩ => rfl)

/-- The bias as a row, repeated down the 256 rows, read at `(r, q)` is the bias at `q`. -/
theorem biasRows_apply (v : Vec Ideal S1024 .f32) (r : Fin 256) (q : Fin 1024) :
    (broadcastTo S256x1024 (shapeCast S1x1024 v Facts₀.shapeCasts_S1024_S1x1024) Facts₀.broadcasts_S1x1024_S256x1024 (ix2 r q) : EReal)
      = (v (ix1 q) : EReal) := by
  refine (broadcastTo_apply (shapeCast S1x1024 v Facts₀.shapeCasts_S1024_S1x1024) Facts₀.broadcasts_S1x1024_S256x1024 (ix2 r q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])).trans ?_
  refine (shapeCast_addUnit_apply ![1024] v Facts₀.shapeCasts_S1024_S1x1024 (ix2 (0 : Fin 1) q)).trans ?_
  exact congrArg v (funext fun a => match a with | ⟨0, _⟩ => rfl)

/-- The 256 × 1024 slice of the 256 × 4096 array that starts at column `o`, read at `(r, q)`, is the array at column `o + q`. -/
theorem slice_apply (o : Nat) (S : Vec Ideal S256x4096 .f32) (h : S256x4096.Slices ![0, o] S256x1024) (r : Fin 256) (q : Fin 1024)
    (c : Fin 4096) (hc : c.val = o + q.val) :
    (extractStridedSlice S256x1024 ![0, o] S h (ix2 r q) : EReal) = (S (ix2 r c) : EReal) :=
  extractStridedSlice_apply ![0, o] S h (ix2 r q) (ix2 r c) (fun a => match a with
    | ⟨0, _⟩ => by show r.val = 0 + r.val; omega
    | ⟨1, _⟩ => hc)

/-- The pre-activation block at row `r`, column `q`. -/
theorem pay1_apply (v0 v2 : Vec Ideal S256x1024 .f32) (v4 v6 : Vec Ideal S1024x1024 .bf16) (v13 : Vec Ideal S1024 .f32)
    (r : Fin 256) (q : Fin 1024) :
    (k0_pay1 (F := Ideal) v0 v2 v4 v6 v13 (ix2 r q) : EReal)
      = ((∑ k : Fin 1024, (v2 (ix2 r k) : EReal) * (v4 (ix2 q k) : EReal)) + ∑ k : Fin 1024, (v0 (ix2 r k) : EReal) * (v6 (ix2 q k) : EReal))
        + (v13 (ix1 q) : EReal) := by
  unfold k0_pay1
  show (matmul dot_S256x1024_S1024x1024_S256x1024_1_0_0_1_n_n none _ _ _ (ix2 r q) + matmul dot_S256x1024_S1024x1024_S256x1024_1_0_0_1_n_n none _ _ _ (ix2 r q)) + broadcastTo S256x1024 _ _ (ix2 r q) = _
  rw [matmul_zero_apply, matmul_zero_apply, biasRows_apply]
  simp only [truncf_apply]
  refine congrArg₂ (· + ·) (congrArg₂ (· + ·) (Finset.sum_congr rfl fun k _ => ?_) (Finset.sum_congr rfl fun k _ => ?_)) rfl
  · exact congrArg (_ * ·) (weightT_apply v4 k q)
  · exact congrArg (_ * ·) (weightT_apply v6 k q)

/-- The next cell state's block at row `r`, column `q`. -/
theorem pay6_apply (S : Vec Ideal S256x4096 .f32) (cb : Vec Ideal S256x1024 .f32) (r : Fin 256) (q : Fin 1024) :
    (k0_pay6 (F := Ideal) S cb (ix2 r q) : EReal)
      = Ideal.logistic (S (ix2 r (gcol 1 q))) * (cb (ix2 r q) : EReal) + Ideal.logistic (S (ix2 r (gcol 0 q))) * Ideal.tanh (S (ix2 r (gcol 2 q))) := by
  unfold k0_pay6
  show Ideal.logistic (extractStridedSlice S256x1024 ![0, 1024] S _ (ix2 r q)) * (cb (ix2 r q) : EReal)
      + Ideal.logistic (extractStridedSlice S256x1024 ![0, 0] S _ (ix2 r q)) * Ideal.tanh (extractStridedSlice S256x1024 ![0, 2048] S _ (ix2 r q)) = _
  rw [slice_apply 1024 S _ r q (gcol 1 q) rfl, slice_apply 0 S _ r q (gcol 0 q) (by show 1024 * 0 + q.val = 0 + q.val; omega),
    slice_apply 2048 S _ r q (gcol 2 q) rfl]

/-- The next hidden state's block at row `r`, column `q`. -/
theorem pay7_apply (S : Vec Ideal S256x4096 .f32) (cb : Vec Ideal S256x1024 .f32) (r : Fin 256) (q : Fin 1024) :
    (k0_pay7 (F := Ideal) S cb (ix2 r q) : EReal)
      = Ideal.logistic (S (ix2 r (gcol 3 q))) * Ideal.tanh (k0_pay6 (F := Ideal) S cb (ix2 r q)) := by
  unfold k0_pay7
  show Ideal.logistic (extractStridedSlice S256x1024 ![0, 3072] S _ (ix2 r q)) * Ideal.tanh (k0_pay6 (F := Ideal) S cb (ix2 r q)) = _
  rw [slice_apply 3072 S _ r q (gcol 3 q) rfl]

end Cert.KernelIdeal.PayValue

end
-- ==== Proof.KI.Value.lean ====
/-
  What the two result arrays hold after the run, at the extended reals: the specification's next hidden state and next
  cell state of the argument arrays. Batch block b's output block is written back once, after its last gate's point
  4·b + 3, and it holds the gating of the four pre-activation blocks of b, each read off the argument arrays through the
  windows: x, h, c by row block b; the weights (converted to the narrower format on the host, which changes nothing
  here) by the gate's row block; the bias by the gate's block. The sixteen written-back blocks tile the array.
-/
import proofs.«168099_j41764261986629_1_alg».proof.Proof.KI.Blocks
import proofs.«168099_j41764261986629_1_alg».proof.Proof.KI.PayValue
import proofs.«168099_j41764261986629_1_alg».proof.Proof.Spec
import Idealize.ShloMosaic.Lib.Pipeline.Value
import Idealize.ShloMosaic.Lib.StableHlo.Run

set_option maxRecDepth 16384

noncomputable section

namespace Cert.KernelIdeal.OutValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand Cert.KernelIdeal.PayValue

variable (m : (ℓ : Loc nD τ sig) → Buf (Elt Ideal) ℓ)

/-! ## A point's blocks at an index -/

/-- The pre-activation block of point `t` at `(r, q)`: the specification's pre-activation of batch row
    `256·(t/4) + r` and gate column `1024·(t%4) + q`. -/
theorem partAt_apply (c : Dev nD) (t : Fin cfg0.N) (r : Fin 256) (q : Fin 1024) :
    (partAt m c t (ix2 r q) : EReal) = Cert.Lstm.pre (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (brow t r) (grow t q) := by
  unfold partAt
  refine (pay1_apply (xblk m c t) (hblk m c t) (whblk m c t) (wxblk m c t) (bblk m c t) r q).trans ?_
  unfold Cert.Lstm.pre Cert.Lstm.hW Cert.Lstm.xW
  refine congrArg₂ (· + ·) (congrArg₂ (· + ·) (Finset.sum_congr rfl fun k _ => ?_) (Finset.sum_congr rfl fun k _ => ?_)) (bblk_apply m c t q)
  · exact congrArg₂ (· * ·) (hblk_apply m c t r k) (whblk_apply m c t q k)
  · exact congrArg₂ (· * ·) (xblk_apply m c t r k) (wxblk_apply m c t q k)

/-- Column `1024·g + q` of the 4096 is gate `g` … -/
theorem gateOf_gcol (r : Fin 256) (g : Fin 4) (q : Fin 1024) : gateOf (ix2 r (gcol g q)) = g :=
  Fin.ext (by show (1024 * g.val + q.val) / 1024 = g.val; have := q.isLt; omega)
/-- … hidden unit `q` … -/
theorem unitOf_gcol (r : Fin 256) (g : Fin 4) (q : Fin 1024) : unitOf (ix2 r (gcol g q)) = q :=
  Fin.ext (by show (1024 * g.val + q.val) % 1024 = q.val; have := q.isLt; omega)
/-- … and its row is `r`. -/
theorem rowOf_gcol (r : Fin 256) (g : Fin 4) (q : Fin 1024) : rowOf (ix2 r (gcol g q)) = r := Fin.ext rfl

/-- The point of gate `g` in the batch block of `t` has `t`'s rows … -/
theorem brow_ptOf (t : Fin cfg0.N) (g : Fin 4) (r : Fin 256) : brow (ptOf (blkOf t) g) r = brow t r :=
  Fin.ext (by show 256 * ((4 * (t.val / 4) + g.val) / 4) + r.val = 256 * (t.val / 4) + r.val; have := g.isLt; omega)
/-- … and gate `g`'s columns. -/
theorem grow_ptOf (t : Fin cfg0.N) (g : Fin 4) (q : Fin 1024) : grow (ptOf (blkOf t) g) q = Cert.Lstm.col g q :=
  Fin.ext (by show 1024 * ((4 * (t.val / 4) + g.val) % 4) + q.val = 1024 * g.val + q.val; have := g.isLt; omega)

/-- The four gates' blocks of `t`'s batch block, side by side, at row `r` and gate `g`'s column `q`. -/
theorem scrBlk_apply (c : Dev nD) (t : Fin cfg0.N) (g : Fin 4) (r : Fin 256) (q : Fin 1024) :
    (scrBlk m c (blkOf t) (ix2 r (gcol g q)) : EReal) = Cert.Lstm.pre (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (brow t r) (Cert.Lstm.col g q) := by
  show (partAt m c (ptOf (blkOf t) (gateOf (ix2 r (gcol g q)))) (ix2 (rowOf (ix2 r (gcol g q))) (unitOf (ix2 r (gcol g q)))) : EReal) = _
  rw [gateOf_gcol, unitOf_gcol, rowOf_gcol]
  refine (partAt_apply m c (ptOf (blkOf t) g) r q).trans ?_
  rw [brow_ptOf, grow_ptOf]

/-- The next cell state's block of point `t` at `(r, q)`. -/
theorem cOut_apply (c : Dev nD) (t : Fin cfg0.N) (r : Fin 256) (q : Fin 1024) :
    (cOut m c t (ix2 r q) : EReal) = Cert.Lstm.cNext (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (brow t r) q := by
  unfold cOut
  refine (pay6_apply (scrBlk m c (blkOf t)) (cblk m c t) r q).trans ?_
  unfold Cert.Lstm.cNext
  rw [scrBlk_apply, scrBlk_apply, scrBlk_apply, cblk_apply]

/-- The next hidden state's block of point `t` at `(r, q)`. -/
theorem hOut_apply (c : Dev nD) (t : Fin cfg0.N) (r : Fin 256) (q : Fin 1024) :
    (hOut m c t (ix2 r q) : EReal) = Cert.Lstm.hNext (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (brow t r) q := by
  unfold hOut
  refine (pay7_apply (scrBlk m c (blkOf t)) (cblk m c t) r q).trans ?_
  unfold Cert.Lstm.hNext
  exact congrArg₂ (· * ·) (congrArg Ideal.logistic (scrBlk_apply m c t 3 r q)) (congrArg Ideal.tanh (cOut_apply m c t r q))

/-- The same at any index of the block. -/
theorem cOut_at (c : Dev nD) (t : Fin cfg0.N) (y : S256x1024.Idx) :
    (cOut m c t y : EReal) = Cert.Lstm.cNext (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (brow t (y 0)) (y 1) :=
  (congrArg (cOut m c t) (eq_ix2 y)).trans (cOut_apply m c t (y 0) (y 1))
theorem hOut_at (c : Dev nD) (t : Fin cfg0.N) (y : S256x1024.Idx) :
    (hOut m c t y : EReal) = Cert.Lstm.hNext (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (brow t (y 0)) (y 1) :=
  (congrArg (hOut m c t) (eq_ix2 y)).trans (hOut_apply m c t (y 0) (y 1))

/-! ## From the written-back blocks to the arrays -/

/-- The two result windows' block index at point `t` is `(t / 4, 0)`: decided over the grid. -/
theorem idx_out : ∀ t : Fin cfg0.N, win0_6.index t (0 : Fin 2) = t.val / 4 ∧ win0_6.index t (1 : Fin 2) = 0
    ∧ win0_7.index t (0 : Fin 2) = t.val / 4 ∧ win0_7.index t (1 : Fin 2) = 0 :=
  (by decide +kernel : ∀ t : Fin grid0.N, _)

/-- What point `t` writes back to the h' array is block `t` of the specification's array. -/
theorem flushed6_eq (c : Dev nD) (t : Fin cfg0.N) :
    (dats (F := Ideal) m 0 c).flushed 6 t = ((cfg0.win 6).blk t).view.read (Elt Ideal) (Cert.Lstm.hNextArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show (cfg0.win 6).cut (grid0.coords t) ((dats m 0 c).after 6 t) = _
  rw [after0_6]
  obtain ⟨e0, e1, -, -⟩ := idx_out t
  funext j
  refine (hOut_at m c t ((cfg0.win 6).xinj (grid0.coords t) j)).trans ?_
  show _ = Cert.Lstm.hNext (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ((((cfg0.win 6).blk t).view.emb j) 0) ((((cfg0.win 6).blk t).view.emb j) 1)
  refine congrArg₂ (Cert.Lstm.hNext (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (Fin.ext ?_) (Fin.ext ?_)
  · show 256 * (t.val / 4) + (j 0).val = win0_6.index t (0 : Fin 2) * 256 + 1 * (j 0).val
    rw [e0]; omega
  · show (j 1).val = win0_6.index t (1 : Fin 2) * 1024 + 1 * (j 1).val
    rw [e1]; omega

/-- An index of the h' array is in point `t`'s block iff each coordinate is in the block's range on its axis. -/
theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v0_0).slice (win0_6.rect t)).set ↔ _
  rw [View.set_slice_whole, Rect.mem_set_unit]
  exact Iff.rfl

/-- Row `R` of the h' array is written back by the last gate's point of its batch block, `4·(R / 256) + 3`. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 64 := N_0
  obtain ⟨t, ht⟩ : ∃ t : Fin cfg0.N, t.val = 4 * ((i 0).val / 256) + 3 := ⟨⟨4 * ((i 0).val / 256) + 3, by omega⟩, rfl⟩
  obtain ⟨e0, e1, -, -⟩ := idx_out t
  refine ⟨t, (flush0_6 t).mpr (by omega), ?_⟩
  rw [mem_blk6]
  intro a
  match a with
  | ⟨0, _⟩ =>
    show win0_6.index t (0 : Fin 2) * 256 ≤ (i 0).val ∧ (i 0).val < win0_6.index t (0 : Fin 2) * 256 + 256
    rw [e0, ht]; omega
  | ⟨1, _⟩ =>
    show win0_6.index t (1 : Fin 2) * 1024 ≤ (i 1).val ∧ (i 1).val < win0_6.index t (1 : Fin 2) * 1024 + 1024
    rw [e1]; omega

/-- What point `t` writes back to the c' array is block `t` of the specification's array. -/
theorem flushed7_eq (c : Dev nD) (t : Fin cfg0.N) :
    (dats (F := Ideal) m 0 c).flushed 7 t = ((cfg0.win 7).blk t).view.read (Elt Ideal) (Cert.Lstm.cNextArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show (cfg0.win 7).cut (grid0.coords t) ((dats m 0 c).after 7 t) = _
  rw [after0_7]
  obtain ⟨-, -, e0, e1⟩ := idx_out t
  funext j
  refine (cOut_at m c t ((cfg0.win 7).xinj (grid0.coords t) j)).trans ?_
  show _ = Cert.Lstm.cNext (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ((((cfg0.win 7).blk t).view.emb j) 0) ((((cfg0.win 7).blk t).view.emb j) 1)
  refine congrArg₂ (Cert.Lstm.cNext (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (Fin.ext ?_) (Fin.ext ?_)
  · show 256 * (t.val / 4) + (j 0).val = win0_7.index t (0 : Fin 2) * 256 + 1 * (j 0).val
    rw [e0]; omega
  · show (j 1).val = win0_7.index t (1 : Fin 2) * 1024 + 1 * (j 1).val
    rw [e1]; omega

/-- An index of the c' array is in point `t`'s block iff each coordinate is in the block's range on its axis. -/
theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v0_1).slice (win0_7.rect t)).set ↔ _
  rw [View.set_slice_whole, Rect.mem_set_unit]
  exact Iff.rfl

/-- Row `R` of the c' array is written back by the last gate's point of its batch block, `4·(R / 256) + 3`. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 64 := N_0
  obtain ⟨t, ht⟩ : ∃ t : Fin cfg0.N, t.val = 4 * ((i 0).val / 256) + 3 := ⟨⟨4 * ((i 0).val / 256) + 3, by omega⟩, rfl⟩
  obtain ⟨-, -, e0, e1⟩ := idx_out t
  refine ⟨t, (flush0_7 t).mpr (by omega), ?_⟩
  rw [mem_blk7]
  intro a
  match a with
  | ⟨0, _⟩ =>
    show win0_7.index t (0 : Fin 2) * 256 ≤ (i 0).val ∧ (i 0).val < win0_7.index t (0 : Fin 2) * 256 + 256
    rw [e0, ht]; omega
  | ⟨1, _⟩ =>
    show win0_7.index t (1 : Fin 2) * 1024 ≤ (i 1).val ∧ (i 1).val < win0_7.index t (1 : Fin 2) * 1024 + 1024
    rw [e1]; omega

/-- The h' array after every write-back. -/
theorem final6 (c : Dev nD) :
    (dats (F := Ideal) m 0 c).arrAt 6 cfg0.N
      = Cert.Lstm.hNextArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats (F := Ideal) m 0 c).arrAt_eq_of_cover 6 _ (fun t _ => flushed6_eq m c t) (fun i => cover6 i)

/-- The c' array after every write-back. -/
theorem final7 (c : Dev nD) :
    (dats (F := Ideal) m 0 c).arrAt 7 cfg0.N
      = Cert.Lstm.cNextArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats (F := Ideal) m 0 c).arrAt_eq_of_cover 7 _ (fun t _ => flushed7_eq m c t) (fun i => cover7 i)

end Cert.KernelIdeal.OutValue

end
-- ==== Proof.KB.Conds.lean ====
/-
  The grid of the LSTM kernel is 16 × 4: point t is batch block t / 4 and gate t % 4. The body has five
  conditionals on the gate coordinate: "gate = g" for g = 0, 1, 2, 3 (store this point's pre-activations into
  column slice g of the 256 × 4096 scratch) and "gate = 3" once more (read the whole scratch and write the two
  output blocks). Here: each condition in closed form over the 64 points; the two output windows idle and not
  written back where gate ≠ 3, live and written back where gate = 3; the staging memrefs the pipeline passes at a
  point; and the region invariant with the scratch as a memref owned at some contents.
-/
import proofs.«168099_j41764261986629_1_alg».proof.Proof.Gen.Kernel.Frame
import proofs.«168099_j41764261986629_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, decided over the grid -/

/-- "gate = 0", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "gate = 1". -/
abbrev cond0_1 (i : grid0.Coords) : Prop := (Scalar.cmpi .ne (Scalar.extui (Scalar.cmpi .eq (BitVec.ofNat 32 (i 1).val) 1#32)) 0#32) = 1#1
theorem hcond0_1 : ∀ t : Fin cfg0.N, cond0_1 (grid0.coords t) ↔ t.val % 4 = 1 :=
  (by decide +kernel : ∀ t : Fin grid0.N, cond0_1 (grid0.coords t) ↔ t.val % 4 = 1)

/-- "gate = 2". -/
abbrev cond0_2 (i : grid0.Coords) : Prop := (Scalar.cmpi .ne (Scalar.extui (Scalar.cmpi .eq (BitVec.ofNat 32 (i 1).val) 2#32)) 0#32) = 1#1
theorem hcond0_2 : ∀ t : Fin cfg0.N, cond0_2 (grid0.coords t) ↔ t.val % 4 = 2 :=
  (by decide +kernel : ∀ t : Fin grid0.N, cond0_2 (grid0.coords t) ↔ t.val % 4 = 2)

/-- "gate = 3", the store of the last slice. -/
abbrev cond0_3 (i : grid0.Coords) : Prop := (Scalar.cmpi .ne (Scalar.extui (Scalar.cmpi .eq (BitVec.ofNat 32 (i 1).val) 3#32)) 0#32) = 1#1
theorem hcond0_3 : ∀ t : Fin cfg0.N, cond0_3 (grid0.coords t) ↔ t.val % 4 = 3 :=
  (by decide +kernel : ∀ t : Fin grid0.N, cond0_3 (grid0.coords t) ↔ t.val % 4 = 3)

/-- "gate = 3" again, the gating of the four slices into the outputs. -/
abbrev cond0_4 (i : grid0.Coords) : Prop := k0_cond5 i = 1#1
theorem hcond0_4 : ∀ t : Fin cfg0.N, cond0_4 (grid0.coords t) ↔ t.val % 4 = 3 :=
  (by decide +kernel : ∀ t : Fin grid0.N, cond0_4 (grid0.coords t) ↔ t.val % 4 = 3)

/-! ## Where the windows are idle, and where the outputs are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-- Where gate ≠ 3 the h' window is idle and its block is not written back. -/
theorem idleAt0_6 : ∀ t : Fin cfg0.N, ¬ t.val % 4 = 3 → cfg0.idle 6 (grid0.coords t) = true := by decide +kernel
theorem noFlush0_6 : ∀ t : Fin cfg0.N, ¬ t.val % 4 = 3 → (cfg0.win 6).flush t = false := by decide +kernel
/-- Where gate = 3 it is live (and written back: Points' `flush0_6`). -/
theorem liveAt0_6 : ∀ t : Fin cfg0.N, t.val % 4 = 3 → cfg0.idle 6 (grid0.coords t) = false := by decide +kernel
/-- The same for the c' window. -/
theorem idleAt0_7 : ∀ t : Fin cfg0.N, ¬ t.val % 4 = 3 → cfg0.idle 7 (grid0.coords t) = true := by decide +kernel
theorem noFlush0_7 : ∀ t : Fin cfg0.N, ¬ t.val % 4 = 3 → (cfg0.win 7).flush t = false := by decide +kernel
theorem liveAt0_7 : ∀ t : Fin cfg0.N, t.val % 4 = 3 → cfg0.idle 7 (grid0.coords t) = false := by decide +kernel

/-! ## The staging memrefs at a point, and the scratch -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)

/-- The scratch that collects the four pre-activation slices of a batch block. -/
abbrev scM0_0 : Memref sig .tc .vmem S256x4096 .f32 := Memref.whole cc0_scratch0

/-- The class's region invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KB.Data.lean ====
/-
  The pipeline's proof data. Point t = 4·b + g is gate g of batch block b. `partAt t` is the pre-activation block the
  body computes at t from the point's x, h, weight and bias blocks; `scrBlk b` is the 256 × 4096 array of the four gates'
  blocks of batch block b side by side, which is what the scratch holds once the four points of b have run; the h' and c'
  blocks are the gating of `scrBlk b` and the c block. The region invariant before point n says that the scratch holds
  SOME contents whose column slices below gate n % 4 are already those of `scrBlk (n / 4)`: nothing before a batch
  block's first point, everything needed at its last.
-/
import proofs.«168099_j41764261986629_1_alg».proof.Proof.KB.Conds
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The pre-activation block of point `t`. -/
def partAt (c : Dev nD) (t : Fin cfg0.N) : Vec F S256x1024 .f32 :=
  k0_pay1 (iblk m c 0 t) (iblk m c 1 t) (iblk m c 3 t) (iblk m c 4 t) (iblk m c 5 t)

/-- The point of batch block `b`, gate `k`. -/
def ptOf (b : Fin 16) (k : Fin 4) : Fin cfg0.N :=
  ⟨4 * b.val + k.val, by have := b.isLt; have := k.isLt; have h : cfg0.N = 64 := N_0; omega⟩

@[simp] theorem ptOf_val (b : Fin 16) (k : Fin 4) : (ptOf b k).val = 4 * b.val + k.val := rfl

/-- The batch block of point `t`. -/
def blkOf (t : Fin cfg0.N) : Fin 16 := ⟨t.val / 4, by have := t.isLt; have h : cfg0.N = 64 := N_0; omega⟩

@[simp] theorem blkOf_val (t : Fin cfg0.N) : (blkOf t).val = t.val / 4 := rfl

/-- The gate of column `j` of the 4096, and the column within the gate. -/
def gateOf (j : S256x4096.Idx) : Fin 4 := ⟨(j 1).val / 1024, by have := ValueIdx.idx2_lt1 j; omega⟩
def unitOf (j : S256x4096.Idx) : Fin 1024 := ⟨(j 1).val % 1024, Nat.mod_lt _ (by norm_num)⟩
def rowOf (j : S256x4096.Idx) : Fin 256 := ⟨(j 0).val, ValueIdx.idx2_lt0 j⟩

/-- The four gates' pre-activation blocks of batch block `b`, side by side. -/
def scrBlk (c : Dev nD) (b : Fin 16) : Vec F S256x4096 .f32 :=
  fun j => partAt m c (ptOf b (gateOf j)) (ValueIdx.ix2 (rowOf j) (unitOf j))

/-- The next hidden state's block at point `t` (what the body stores where gate = 3). -/
def hOut (c : Dev nD) (t : Fin cfg0.N) : Vec F S256x1024 .f32 := k0_pay7 (scrBlk m c (blkOf t)) (iblk m c 2 t)

/-- The next cell state's block at point `t`. -/
def cOut (c : Dev nD) (t : Fin cfg0.N) : Vec F S256x1024 .f32 := k0_pay6 (scrBlk m c (blkOf t)) (iblk m c 2 t)

/-- Before point `n`: the column slices of gates below `n % 4` hold batch block `n / 4`'s blocks. -/
def Inv (c : Dev nD) (n : ℕ) (X : Vec F S256x4096 .f32) : Prop :=
  ∀ b : Fin 16, b.val = n / 4 → ∀ j : S256x4096.Idx, (j 1).val / 1024 < n % 4 → X j = scrBlk m c b j

/-- Nothing is asked where a batch block begins. -/
theorem Inv_of_mod (c : Dev nD) (n : ℕ) (h : n % 4 = 0) (X : Vec F S256x4096 .f32) : Inv m c n X := by
  intro b _ j hj; rw [h] at hj; exact absurd hj (Nat.not_lt_zero _)

/-- The region invariant before point `n`. -/
def PhiS (c : Dev nD) (n : ℕ) : sProp 𝕄 :=
  iprop((∃ X, ⌜Inv m c n X⌝ ∗ owns (c : Thread nD τ) scM0_0 fullShare X) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hOut m c t
    | ⟨7, _⟩ => cOut m c t
  Φ t := PhiS m c t.val
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hOut m c t := by dsimp only [dats]
theorem after0_7 (c : Dev nD) (t : Fin cfg0.N) : (dats m 0 c).after 7 t = cOut m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.Kernel.Hand

end
-- ==== Proof.KB.RunA.lean ====
/-
  The body at a point of gate 0, run once on any whole staging memrefs: it loads the x, h, weight and bias blocks
  and stores the pre-activation block into column slice 0 of the scratch; nothing else is written. The inputs and the
  two output buffers are handed back as found; the scratch ends as one piece written over the contents it was handed.
-/
import proofs.«168099_j41764261986629_1_alg».proof.Proof.KB.Conds
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the scratch ends with at gate 0 (found by the run), with the body's triple. -/
noncomputable def kernelRun0_A (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x4096 .f32) (harg10 : arg10.IsWhole) (hc0 : cond0_0 i) (hc1 : ¬cond0_1 i) (hc2 : ¬cond0_2 i) (hc3 : ¬cond0_3 i) (hc4 : ¬cond0_4 i)
    (x0 : Vec F S256x1024 .f32) (x1 : Vec F S256x1024 .f32) (x2 : Vec F S256x1024 .f32) (x3 : Vec F S1024x1024 .bf16) (x4 : Vec F S1024x1024 .bf16) (x5 : Vec F S1024 .f32) (y6 : Vec F S256x1024 .f32) (y7 : Vec F S256x1024 .f32) (xs0 : Vec F S256x4096 .f32) :
    { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (arg10.view.loc (c : Thread nD τ) ↦[arg10.view.set]{fullShare} arg10.view.writes (Elt F) (harg10.unread xs0) LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, fun E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]
    · iexists _; isplitr; · ipureintro; exact hf7
      iexact H7
    iexact HS0

end Cert.Kernel.Hand

end
-- ==== Proof.KB.RunB.lean ====
/-
  The body at a point of gate 1, run once on any whole staging memrefs: it loads the x, h, weight and bias blocks
  and stores the pre-activation block into column slice 1 of the scratch; nothing else is written. The inputs and the
  two output buffers are handed back as found; the scratch ends as one piece written over the contents it was handed.
-/
import proofs.«168099_j41764261986629_1_alg».proof.Proof.KB.RunA
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the scratch ends with at gate 1 (found by the run), with the body's triple. -/
noncomputable def kernelRun0_B (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x4096 .f32) (harg10 : arg10.IsWhole) (hc0 : ¬cond0_0 i) (hc1 : cond0_1 i) (hc2 : ¬cond0_2 i) (hc3 : ¬cond0_3 i) (hc4 : ¬cond0_4 i)
    (x0 : Vec F S256x1024 .f32) (x1 : Vec F S256x1024 .f32) (x2 : Vec F S256x1024 .f32) (x3 : Vec F S1024x1024 .bf16) (x4 : Vec F S1024x1024 .bf16) (x5 : Vec F S1024 .f32) (y6 : Vec F S256x1024 .f32) (y7 : Vec F S256x1024 .f32) (xs0 : Vec F S256x4096 .f32) :
    { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (arg10.view.loc (c : Thread nD τ) ↦[arg10.view.set]{fullShare} arg10.view.writes (Elt F) (harg10.unread xs0) LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, fun E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]
    · iexists _; isplitr; · ipureintro; exact hf7
      iexact H7
    iexact HS0

end Cert.Kernel.Hand

end
-- ==== Proof.KB.RunC.lean ====
/-
  The body at a point of gate 2, run once on any whole staging memrefs: it loads the x, h, weight and bias blocks
  and stores the pre-activation block into column slice 2 of the scratch; nothing else is written. The inputs and the
  two output buffers are handed back as found; the scratch ends as one piece written over the contents it was handed.
-/
import proofs.«168099_j41764261986629_1_alg».proof.Proof.KB.RunB
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the scratch ends with at gate 2 (found by the run), with the body's triple. -/
noncomputable def kernelRun0_C (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x4096 .f32) (harg10 : arg10.IsWhole) (hc0 : ¬cond0_0 i) (hc1 : ¬cond0_1 i) (hc2 : cond0_2 i) (hc3 : ¬cond0_3 i) (hc4 : ¬cond0_4 i)
    (x0 : Vec F S256x1024 .f32) (x1 : Vec F S256x1024 .f32) (x2 : Vec F S256x1024 .f32) (x3 : Vec F S1024x1024 .bf16) (x4 : Vec F S1024x1024 .bf16) (x5 : Vec F S1024 .f32) (y6 : Vec F S256x1024 .f32) (y7 : Vec F S256x1024 .f32) (xs0 : Vec F S256x4096 .f32) :
    { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (arg10.view.loc (c : Thread nD τ) ↦[arg10.view.set]{fullShare} arg10.view.writes (Elt F) (harg10.unread xs0) LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, fun E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]
    · iexists _; isplitr; · ipureintro; exact hf7
      iexact H7
    iexact HS0

end Cert.Kernel.Hand

end
-- ==== Proof.KB.RunD.lean ====
/-
  The body at a point of gate 3, run once on any whole staging memrefs: it loads the x, h, weight and bias blocks,
  stores the pre-activation block into column slice 3 of the scratch, then loads the whole scratch and the c block
  and stores h' and c' into the two output buffers. The inputs are handed back as found; each output buffer ends as
  one piece written over whatever it held; the scratch ends as one piece written over the contents it was handed.
-/
import proofs.«168099_j41764261986629_1_alg».proof.Proof.KB.RunC
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces each output buffer and the scratch end with at gate 3 (found by the run), with the body's triple. -/
noncomputable def kernelRun0_D (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x4096 .f32) (harg10 : arg10.IsWhole) (hc0 : ¬cond0_0 i) (hc1 : ¬cond0_1 i) (hc2 : ¬cond0_2 i) (hc3 : cond0_3 i) (hc4 : cond0_4 i)
    (x0 : Vec F S256x1024 .f32) (x1 : Vec F S256x1024 .f32) (x2 : Vec F S256x1024 .f32) (x3 : Vec F S1024x1024 .bf16) (x4 : Vec F S1024x1024 .bf16) (x5 : Vec F S1024 .f32) (xs0 : Vec F S256x4096 .f32) :
    Σ' (L6 : List (View.Piece (Elt F) S256x1024 .f32)) (L7 : List (View.Piece (Elt F) S256x1024 .f32)), { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs0) LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__lstm_kernel_eq_skeleton]; unfold cc0__lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexact HS0

end Cert.Kernel.Hand

end
-- ==== Proof.KB.Pieces.lean ====
/-
  What the runs' pieces read back as. At a point of gate g the scratch ends as the contents it was handed with
  columns [1024·g, 1024·g + 1024) replaced by the point's pre-activation block (`setSlice`); at gate 3 the two output
  buffers end, whatever they held, as h' and c' of that scratch and the c block.
-/
import proofs.«168099_j41764261986629_1_alg».proof.Proof.KB.RunD
import Idealize.ShloMosaic.Lib.WritesUnit
import Idealize.ShloMosaic.Lib.Pipeline.Value
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The 256 × 4096 array `X` with columns [1024·g, 1024·g + 1024) replaced by the 256 × 1024 block `P`. -/
def setSlice (g : ℕ) (P : Vec F S256x1024 .f32) (X : Vec F S256x4096 .f32) : Vec F S256x4096 .f32 :=
  fun j => if h : 1024 * g ≤ (j 1).val ∧ (j 1).val < 1024 * g + 1024 then
      P (ValueIdx.ix2 (⟨(j 0).val, ValueIdx.idx2_lt0 j⟩ : Fin 256) (⟨(j 1).val - 1024 * g, by omega⟩ : Fin 1024))
    else X j

/-- Inside the replaced columns it is the block, -/
theorem setSlice_of_mem (g : ℕ) (P : Vec F S256x1024 .f32) (X : Vec F S256x4096 .f32) (j : S256x4096.Idx)
    (h : 1024 * g ≤ (j 1).val ∧ (j 1).val < 1024 * g + 1024) :
    setSlice g P X j = P (ValueIdx.ix2 (⟨(j 0).val, ValueIdx.idx2_lt0 j⟩ : Fin 256) (⟨(j 1).val - 1024 * g, by omega⟩ : Fin 1024)) := by
  unfold setSlice; rw [dif_pos h]

/-- outside them the array. -/
theorem setSlice_of_not_mem (g : ℕ) (P : Vec F S256x1024 .f32) (X : Vec F S256x4096 .f32) (j : S256x4096.Idx)
    (h : ¬ (1024 * g ≤ (j 1).val ∧ (j 1).val < 1024 * g + 1024)) : setSlice g P X j = X j := by
  unfold setSlice; rw [dif_neg h]

/-- The zero offsets of a rank-2 rectangle, as a constant function. -/
theorem zeros2 : (![0, 0] : Fin 2 → ℕ) = fun _ => 0 := by
  funext a; match a with | ⟨0, _⟩ => rfl | ⟨1, _⟩ => rfl

/-- The zero offset of a rank-1 rectangle, as a constant function. -/
theorem zeros1 : (![0] : Fin 1 → ℕ) = fun _ => 0 := by
  funext a; match a with | ⟨0, _⟩ => rfl

/-- The gate blocks are the pre-activation block itself: the cast to the same shape is the identity. -/
theorem k0_pay2_eq (v0 v2 : Vec F S256x1024 .f32) (v4 v6 : Vec F S1024x1024 .bf16) (v13 : Vec F S1024 .f32) :
    k0_pay2 v0 v2 v4 v6 v13 = k0_pay1 v0 v2 v4 v6 v13 := by
  unfold k0_pay2; exact shapeCast_self _ _

theorem k0_pay3_eq (v0 v2 : Vec F S256x1024 .f32) (v4 v6 : Vec F S1024x1024 .bf16) (v13 : Vec F S1024 .f32) :
    k0_pay3 v0 v2 v4 v6 v13 = k0_pay1 v0 v2 v4 v6 v13 := by
  unfold k0_pay3; exact shapeCast_self _ _

theorem k0_pay4_eq (v0 v2 : Vec F S256x1024 .f32) (v4 v6 : Vec F S1024x1024 .bf16) (v13 : Vec F S1024 .f32) :
    k0_pay4 v0 v2 v4 v6 v13 = k0_pay1 v0 v2 v4 v6 v13 := by
  unfold k0_pay4; exact shapeCast_self _ _

theorem k0_pay5_eq (v0 v2 : Vec F S256x1024 .f32) (v4 v6 : Vec F S1024x1024 .bf16) (v13 : Vec F S1024 .f32) :
    k0_pay5 v0 v2 v4 v6 v13 = k0_pay1 v0 v2 v4 v6 v13 := by
  unfold k0_pay5; exact shapeCast_self _ _

/-- One store of a 256 × 1024 block at columns [o, o + 1024), o = 1024·g, over contents that read as `X`: inside those
columns an element reads the block at the column minus o, elsewhere it reads `X`. -/
theorem read_writes_slice (m : Memref sig .tc .vmem S256x4096 .f32) (hm : m.IsWhole) (g o : ℕ) (ho : o = 1024 * g)
    (inb : ∀ a, (![0, o] : Fin 2 → ℕ) a + S256x1024.size a ≤ S256x4096.size a)
    (P : Vec F S256x1024 .f32) (X : Vec F S256x4096 .f32) :
    m.view.read (Elt F) (m.view.writes (Elt F) (hm.unread X)
        [(⟨Rect.unit (s := S256x4096) ![0, o] S256x1024.size inb, P⟩ : View.Piece (Elt F) S256x4096 .f32)])
      = setSlice g P X := by
  funext j
  have hj0 := ValueIdx.idx2_lt0 j
  have hj1 := ValueIdx.idx2_lt1 j
  by_cases h : 1024 * g ≤ (j 1).val ∧ (j 1).val < 1024 * g + 1024
  · rw [setSlice_of_mem g P X j h]
    exact View.read_writes_cons_unit_of_mem m.view _ inb P [] j _ rfl (Fin.forall_fin_two.mpr ⟨by
      show (j 0).val = 0 + (j 0).val
      omega, by
      show (j 1).val = o + ((j 1).val - 1024 * g)
      omega⟩)
  · rw [setSlice_of_not_mem g P X j h,
      View.read_writes_cons_unit_of_not_mem m.view _ inb P [] j rfl (1 : Fin 2) (by
        show (j 1).val < o ∨ o + 1024 ≤ (j 1).val
        omega),
      View.writes_nil, hm.read_unread]

/-- One store of a whole 256 × 1024 block into a 256 × 1024 buffer leaves the block, whatever the buffer held. -/
theorem read_writes_whole {κ : Kind} {sp : Space} (v : View sig κ sp S256x1024 .f32) (f : v.ty.Contents (Elt F))
    (inb : ∀ a, (![0, 0] : Fin 2 → ℕ) a + S256x1024.size a ≤ S256x1024.size a) (w : Vec F S256x1024 .f32) :
    v.read (Elt F) (v.writes (Elt F) f [(⟨Rect.unit (s := S256x1024) ![0, 0] S256x1024.size inb, w⟩ : View.Piece (Elt F) S256x1024 .f32)])
      = w := by
  funext y
  exact View.read_writes_cons_unit_of_mem v f inb w [] y y rfl
    (Fin.forall_fin_two.mpr ⟨(Nat.zero_add _).symm, (Nat.zero_add _).symm⟩)

variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x4096 .f32) (harg10 : arg10.IsWhole)

/-- Gate 0: the scratch after the body. -/
theorem scratch_A (hc0 : cond0_0 i) (hc1 : ¬cond0_1 i) (hc2 : ¬cond0_2 i) (hc3 : ¬cond0_3 i) (hc4 : ¬cond0_4 i) (x0 : Vec F S256x1024 .f32) (x1 : Vec F S256x1024 .f32) (x2 : Vec F S256x1024 .f32) (x3 : Vec F S1024x1024 .bf16) (x4 : Vec F S1024x1024 .bf16) (x5 : Vec F S1024 .f32) (y6 y7 : Vec F S256x1024 .f32) (xs0 : Vec F S256x4096 .f32) :
    arg10.view.read (Elt F) (arg10.view.writes (Elt F) (harg10.unread xs0) (kernelRun0_A (F := F) c i arg2 harg2 arg3 harg3 arg4 harg4 arg5 harg5 arg6 harg6 arg7 harg7 arg8 harg8 arg9 harg9 arg10 harg10 hc0 hc1 hc2 hc3 hc4 x0 x1 x2 x3 x4 x5 y6 y7 xs0).1)
      = setSlice 0 (k0_pay1 x0 x1 x3 x4 x5) xs0 := by
  unfold kernelRun0_A
  dsimp only
  simp only [View.readAt_eq_ld, harg2.read_unread, harg3.read_unread, harg5.read_unread, harg6.read_unread,
    harg7.read_unread, View.ld_unit_zero (S := S256x1024) zeros2, View.ld_unit_zero (S := S1024x1024) zeros2,
    View.ld_unit_zero (S := S1024) zeros1, k0_pay2_eq]
  exact read_writes_slice arg10 harg10 0 0 rfl _ _ _

/-- Gate 1. -/
theorem scratch_B (hc0 : ¬cond0_0 i) (hc1 : cond0_1 i) (hc2 : ¬cond0_2 i) (hc3 : ¬cond0_3 i) (hc4 : ¬cond0_4 i) (x0 : Vec F S256x1024 .f32) (x1 : Vec F S256x1024 .f32) (x2 : Vec F S256x1024 .f32) (x3 : Vec F S1024x1024 .bf16) (x4 : Vec F S1024x1024 .bf16) (x5 : Vec F S1024 .f32) (y6 y7 : Vec F S256x1024 .f32) (xs0 : Vec F S256x4096 .f32) :
    arg10.view.read (Elt F) (arg10.view.writes (Elt F) (harg10.unread xs0) (kernelRun0_B (F := F) c i arg2 harg2 arg3 harg3 arg4 harg4 arg5 harg5 arg6 harg6 arg7 harg7 arg8 harg8 arg9 harg9 arg10 harg10 hc0 hc1 hc2 hc3 hc4 x0 x1 x2 x3 x4 x5 y6 y7 xs0).1)
      = setSlice 1 (k0_pay1 x0 x1 x3 x4 x5) xs0 := by
  unfold kernelRun0_B
  dsimp only
  simp only [View.readAt_eq_ld, harg2.read_unread, harg3.read_unread, harg5.read_unread, harg6.read_unread,
    harg7.read_unread, View.ld_unit_zero (S := S256x1024) zeros2, View.ld_unit_zero (S := S1024x1024) zeros2,
    View.ld_unit_zero (S := S1024) zeros1, k0_pay3_eq]
  exact read_writes_slice arg10 harg10 1 1024 rfl _ _ _

/-- Gate 2. -/
theorem scratch_C (hc0 : ¬cond0_0 i) (hc1 : ¬cond0_1 i) (hc2 : cond0_2 i) (hc3 : ¬cond0_3 i) (hc4 : ¬cond0_4 i) (x0 : Vec F S256x1024 .f32) (x1 : Vec F S256x1024 .f32) (x2 : Vec F S256x1024 .f32) (x3 : Vec F S1024x1024 .bf16) (x4 : Vec F S1024x1024 .bf16) (x5 : Vec F S1024 .f32) (y6 y7 : Vec F S256x1024 .f32) (xs0 : Vec F S256x4096 .f32) :
    arg10.view.read (Elt F) (arg10.view.writes (Elt F) (harg10.unread xs0) (kernelRun0_C (F := F) c i arg2 harg2 arg3 harg3 arg4 harg4 arg5 harg5 arg6 harg6 arg7 harg7 arg8 harg8 arg9 harg9 arg10 harg10 hc0 hc1 hc2 hc3 hc4 x0 x1 x2 x3 x4 x5 y6 y7 xs0).1)
      = setSlice 2 (k0_pay1 x0 x1 x3 x4 x5) xs0 := by
  unfold kernelRun0_C
  dsimp only
  simp only [View.readAt_eq_ld, harg2.read_unread, harg3.read_unread, harg5.read_unread, harg6.read_unread,
    harg7.read_unread, View.ld_unit_zero (S := S256x1024) zeros2, View.ld_unit_zero (S := S1024x1024) zeros2,
    View.ld_unit_zero (S := S1024) zeros1, k0_pay4_eq]
  exact read_writes_slice arg10 harg10 2 2048 rfl _ _ _

/-- Gate 3: the scratch after the body, -/
theorem scratch_D (hc0 : ¬cond0_0 i) (hc1 : ¬cond0_1 i) (hc2 : ¬cond0_2 i) (hc3 : cond0_3 i) (hc4 : cond0_4 i) (x0 : Vec F S256x1024 .f32) (x1 : Vec F S256x1024 .f32) (x2 : Vec F S256x1024 .f32) (x3 : Vec F S1024x1024 .bf16) (x4 : Vec F S1024x1024 .bf16) (x5 : Vec F S1024 .f32) (xs0 : Vec F S256x4096 .f32) :
    arg10.view.read (Elt F) (arg10.view.writes (Elt F) (harg10.unread xs0) (kernelRun0_D (F := F) c i arg2 harg2 arg3 harg3 arg4 harg4 arg5 harg5 arg6 harg6 arg7 harg7 arg8 harg8 arg9 harg9 arg10 harg10 hc0 hc1 hc2 hc3 hc4 x0 x1 x2 x3 x4 x5 xs0).2.2.1)
      = setSlice 3 (k0_pay1 x0 x1 x3 x4 x5) xs0 := by
  unfold kernelRun0_D
  dsimp only
  sl_unfold_words
  simp only [View.readAt_eq_ld, harg2.read_unread, harg3.read_unread, harg4.read_unread, harg5.read_unread,
    harg6.read_unread, harg7.read_unread, View.ld_unit_zero (S := S256x1024) zeros2,
    View.ld_unit_zero (S := S1024x1024) zeros2, View.ld_unit_zero (S := S1024) zeros1,
    View.ld_unit_zero (S := S256x4096) zeros2, k0_pay5_eq]
  exact read_writes_slice arg10 harg10 3 3072 rfl _ _ _

/-- the h' buffer, over whatever it held, -/
theorem out6_D (hc0 : ¬cond0_0 i) (hc1 : ¬cond0_1 i) (hc2 : ¬cond0_2 i) (hc3 : cond0_3 i) (hc4 : cond0_4 i) (x0 : Vec F S256x1024 .f32) (x1 : Vec F S256x1024 .f32) (x2 : Vec F S256x1024 .f32) (x3 : Vec F S1024x1024 .bf16) (x4 : Vec F S1024x1024 .bf16) (x5 : Vec F S1024 .f32) (xs0 : Vec F S256x4096 .f32) (f : arg8.view.ty.Contents (Elt F)) :
    arg8.view.read (Elt F) (arg8.view.writes (Elt F) f (kernelRun0_D (F := F) c i arg2 harg2 arg3 harg3 arg4 harg4 arg5 harg5 arg6 harg6 arg7 harg7 arg8 harg8 arg9 harg9 arg10 harg10 hc0 hc1 hc2 hc3 hc4 x0 x1 x2 x3 x4 x5 xs0).1)
      = k0_pay7 (setSlice 3 (k0_pay1 x0 x1 x3 x4 x5) xs0) x2 := by
  unfold kernelRun0_D
  dsimp only
  sl_unfold_words
  simp only [View.readAt_eq_ld, harg2.read_unread, harg3.read_unread, harg4.read_unread, harg5.read_unread,
    harg6.read_unread, harg7.read_unread, View.ld_unit_zero (S := S256x1024) zeros2,
    View.ld_unit_zero (S := S1024x1024) zeros2, View.ld_unit_zero (S := S1024) zeros1,
    View.ld_unit_zero (S := S256x4096) zeros2, k0_pay5_eq]
  refine (read_writes_whole arg8.view f _ _).trans ?_
  rw [read_writes_slice arg10 harg10 3 3072 rfl]

/-- and the c' buffer. -/
theorem out7_D (hc0 : ¬cond0_0 i) (hc1 : ¬cond0_1 i) (hc2 : ¬cond0_2 i) (hc3 : cond0_3 i) (hc4 : cond0_4 i) (x0 : Vec F S256x1024 .f32) (x1 : Vec F S256x1024 .f32) (x2 : Vec F S256x1024 .f32) (x3 : Vec F S1024x1024 .bf16) (x4 : Vec F S1024x1024 .bf16) (x5 : Vec F S1024 .f32) (xs0 : Vec F S256x4096 .f32) (f : arg9.view.ty.Contents (Elt F)) :
    arg9.view.read (Elt F) (arg9.view.writes (Elt F) f (kernelRun0_D (F := F) c i arg2 harg2 arg3 harg3 arg4 harg4 arg5 harg5 arg6 harg6 arg7 harg7 arg8 harg8 arg9 harg9 arg10 harg10 hc0 hc1 hc2 hc3 hc4 x0 x1 x2 x3 x4 x5 xs0).2.1)
      = k0_pay6 (setSlice 3 (k0_pay1 x0 x1 x3 x4 x5) xs0) x2 := by
  unfold kernelRun0_D
  dsimp only
  sl_unfold_words
  simp only [View.readAt_eq_ld, harg2.read_unread, harg3.read_unread, harg4.read_unread, harg5.read_unread,
    harg6.read_unread, harg7.read_unread, View.ld_unit_zero (S := S256x1024) zeros2,
    View.ld_unit_zero (S := S1024x1024) zeros2, View.ld_unit_zero (S := S1024) zeros1,
    View.ld_unit_zero (S := S256x4096) zeros2, k0_pay5_eq]
  refine (read_writes_whole arg9.view f _ _).trans ?_
  rw [read_writes_slice arg10 harg10 3 3072 rfl]

end Cert.Kernel.Hand

end
-- ==== Proof.KB.Body.lean ====
/-
  The body obligation and the run. At a point of gate g < 3 the body stores the point's pre-activation block into column
  slice g of the scratch and keeps the slices below it, so the invariant moves from gate g to gate g + 1; at gate 3 the
  scratch then holds the batch block's four blocks, the two output buffers are stored with their gating, and the next
  batch block starts with nothing asked. The inputs' buffers are handed back as found; an output's buffer is handed back
  untouched where gate ≠ 3 (the window is idle there and not written back).
-/
import proofs.«168099_j41764261986629_1_alg».proof.Proof.KB.Data
import proofs.«168099_j41764261986629_1_alg».proof.Proof.KB.Pieces
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant, one point on -/

/-- Storing point `t`'s block into slice `g = t % 4 < 3` of contents that satisfy the invariant before `t` gives contents
    that satisfy it before `t + 1`: the new slice is this point's block, the lower ones are kept. -/
theorem Inv_step (c : Dev nD) (t : Fin cfg0.N) (g : ℕ) (hg : t.val % 4 = g) (hg3 : g < 3) (X : Vec F S256x4096 .f32)
    (hX : Inv m c t.val X) : Inv m c (t.val + 1) (setSlice g (partAt m c t) X) := by
  intro b hb j hj
  have hj1 := ValueIdx.idx2_lt1 j
  by_cases hm : (j 1).val / 1024 = g
  · have hin : 1024 * g ≤ (j 1).val ∧ (j 1).val < 1024 * g + 1024 := by omega
    rw [setSlice_of_mem g _ X j hin]
    have e1 : ptOf b (gateOf j) = t := Fin.ext (by simp only [ptOf_val, gateOf]; omega)
    have e2 : (⟨(j 1).val - 1024 * g, by omega⟩ : Fin 1024) = unitOf j := Fin.ext (by simp only [unitOf]; omega)
    unfold scrBlk
    rw [e1, e2]
    rfl
  · rw [setSlice_of_not_mem g _ X j (by omega)]
    exact hX b (by omega) j (by omega)

/-- Storing the last gate's block completes the batch block's four. -/
theorem scr_full (c : Dev nD) (t : Fin cfg0.N) (h3 : t.val % 4 = 3) (X : Vec F S256x4096 .f32) (hX : Inv m c t.val X) :
    setSlice 3 (partAt m c t) X = scrBlk m c (blkOf t) := by
  funext j
  have hj1 := ValueIdx.idx2_lt1 j
  by_cases hm : (j 1).val / 1024 = 3
  · have hin : 1024 * 3 ≤ (j 1).val ∧ (j 1).val < 1024 * 3 + 1024 := by omega
    rw [setSlice_of_mem 3 _ X j hin]
    have e1 : ptOf (blkOf t) (gateOf j) = t := Fin.ext (by simp only [ptOf_val, blkOf_val, gateOf]; omega)
    have e2 : (⟨(j 1).val - 1024 * 3, by omega⟩ : Fin 1024) = unitOf j := Fin.ext (by simp only [unitOf]; omega)
    unfold scrBlk
    rw [e1, e2]
    rfl
  · rw [setSlice_of_not_mem 3 _ X j (by omega)]
    exact hX (blkOf t) rfl j (by omega)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at a point of gate 0: slice 0 is stored, the slices below it kept. -/
theorem sound_A (c : Dev nD) (t : Fin cfg0.N) (h : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [Phi_eq m c t.succ, Phi_eq m c t.castSucc, Fin.val_succ, Fin.coe_castSucc]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (by omega)) (noFlush0_6 t (by omega))]
  rw [Dat.leavesExact_idle (dats m 0 c) 7 t (idleAt0_7 t (by omega)) (noFlush0_7 t (by omega))]
  iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A (F := F) c (grid0.coords t) _ _ _ _ _ _ _ _ _ _ _ _ _ _ _ _ _ _ ((hcond0_0 t).mpr h) (fun hh => by have := (hcond0_1 t).mp hh; omega) (fun hh => by have := (hcond0_2 t).mp hh; omega) (fun hh => by have := (hcond0_3 t).mp hh; omega) (fun hh => by have := (hcond0_4 t).mp hh; omega) (iblk m c 0 t) (iblk m c 1 t) (iblk m c 2 t) (iblk m c 3 t) (iblk m c 4 t) (iblk m c 5 t) ((dats m 0 c).before 6 t d6) ((dats m 0 c).before 7 t d7) X).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexists (setSlice 0 (k0_pay1 (iblk m c 0 t) (iblk m c 1 t) (iblk m c 3 t) (iblk m c 4 t) (iblk m c 5 t)) X)
      isplitr
      · ipureintro; exact Inv_step m c t 0 h (by omega) X hX
      · unfold owns; iexists _; isplitr
        swap; · iexact HS0
        ipureintro; exact scratch_A c _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The body at a point of gate 1: slice 1 is stored, the slices below it kept. -/
theorem sound_B (c : Dev nD) (t : Fin cfg0.N) (h : t.val % 4 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [Phi_eq m c t.succ, Phi_eq m c t.castSucc, Fin.val_succ, Fin.coe_castSucc]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (by omega)) (noFlush0_6 t (by omega))]
  rw [Dat.leavesExact_idle (dats m 0 c) 7 t (idleAt0_7 t (by omega)) (noFlush0_7 t (by omega))]
  iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B (F := F) c (grid0.coords t) _ _ _ _ _ _ _ _ _ _ _ _ _ _ _ _ _ _ (fun hh => by have := (hcond0_0 t).mp hh; omega) ((hcond0_1 t).mpr h) (fun hh => by have := (hcond0_2 t).mp hh; omega) (fun hh => by have := (hcond0_3 t).mp hh; omega) (fun hh => by have := (hcond0_4 t).mp hh; omega) (iblk m c 0 t) (iblk m c 1 t) (iblk m c 2 t) (iblk m c 3 t) (iblk m c 4 t) (iblk m c 5 t) ((dats m 0 c).before 6 t d6) ((dats m 0 c).before 7 t d7) X).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexists (setSlice 1 (k0_pay1 (iblk m c 0 t) (iblk m c 1 t) (iblk m c 3 t) (iblk m c 4 t) (iblk m c 5 t)) X)
      isplitr
      · ipureintro; exact Inv_step m c t 1 h (by omega) X hX
      · unfold owns; iexists _; isplitr
        swap; · iexact HS0
        ipureintro; exact scratch_B c _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The body at a point of gate 2: slice 2 is stored, the slices below it kept. -/
theorem sound_C (c : Dev nD) (t : Fin cfg0.N) (h : t.val % 4 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [Phi_eq m c t.succ, Phi_eq m c t.castSucc, Fin.val_succ, Fin.coe_castSucc]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (by omega)) (noFlush0_6 t (by omega))]
  rw [Dat.leavesExact_idle (dats m 0 c) 7 t (idleAt0_7 t (by omega)) (noFlush0_7 t (by omega))]
  iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C (F := F) c (grid0.coords t) _ _ _ _ _ _ _ _ _ _ _ _ _ _ _ _ _ _ (fun hh => by have := (hcond0_0 t).mp hh; omega) (fun hh => by have := (hcond0_1 t).mp hh; omega) ((hcond0_2 t).mpr h) (fun hh => by have := (hcond0_3 t).mp hh; omega) (fun hh => by have := (hcond0_4 t).mp hh; omega) (iblk m c 0 t) (iblk m c 1 t) (iblk m c 2 t) (iblk m c 3 t) (iblk m c 4 t) (iblk m c 5 t) ((dats m 0 c).before 6 t d6) ((dats m 0 c).before 7 t d7) X).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexists (setSlice 2 (k0_pay1 (iblk m c 0 t) (iblk m c 1 t) (iblk m c 3 t) (iblk m c 4 t) (iblk m c 5 t)) X)
      isplitr
      · ipureintro; exact Inv_step m c t 2 h (by omega) X hX
      · unfold owns; iexists _; isplitr
        swap; · iexact HS0
        ipureintro; exact scratch_C c _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The body at a point of gate 3: the last slice is stored, the scratch then holds the batch block's four blocks, and the outputs are their gating. -/
theorem sound_D (c : Dev nD) (t : Fin cfg0.N) (h : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [Phi_eq m c t.succ, Phi_eq m c t.castSucc, Fin.val_succ, Fin.coe_castSucc]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t h], after0_6]
  rw [show (dats m 0 c).leavesExact 7 t = owns (c : Thread nD τ) (ms0_7 t) fullShare ((dats m 0 c).after 7 t) from by
    unfold Dat.leavesExact; rw [liveAt0_7 t h], after0_7]
  iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_D (F := F) c (grid0.coords t) _ _ _ _ _ _ _ _ _ _ _ _ _ _ _ _ _ _ (fun hh => by have := (hcond0_0 t).mp hh; omega) (fun hh => by have := (hcond0_1 t).mp hh; omega) (fun hh => by have := (hcond0_2 t).mp hh; omega) ((hcond0_3 t).mpr h) ((hcond0_4 t).mpr h) (iblk m c 0 t) (iblk m c 1 t) (iblk m c 2 t) (iblk m c 3 t) (iblk m c 4 t) (iblk m c 5 t) X).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, ⟨%e6, H6⟩, ⟨%e7, H7⟩, HS0⟩
  isplitl [HS0 Hg]
  · isplitl [HS0]
    · iexists (setSlice 3 (k0_pay1 (iblk m c 0 t) (iblk m c 1 t) (iblk m c 3 t) (iblk m c 4 t) (iblk m c 5 t)) X)
      isplitr
      · ipureintro; exact Inv_of_mod m c (t.val + 1) (by omega) _
      · unfold owns; iexists _; isplitr
        swap; · iexact HS0
        ipureintro; exact scratch_D c _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (out6_D c _ _ _ _ _ _ _ _ _ _ _ _ _ _ _ _ _ _ _ _ _ _ _ _ _ _ _ _ _ _ _ e6).trans (congrArg (fun S => k0_pay7 S (iblk m c 2 t)) (scr_full m c t h X hX))
  unfold owns; iexists _; isplitr
  swap; · iexact H7
  ipureintro
  exact (out7_D c _ _ _ _ _ _ _ _ _ _ _ _ _ _ _ _ _ _ _ _ _ _ _ _ _ _ _ _ _ _ _ e7).trans (congrArg (fun S => k0_pay6 S (iblk m c 2 t)) (scr_full m c t h X hX))

/-- The body at any point: by the gate. -/
theorem sound_body (c : Dev nD) (t : Fin cfg0.N) :
    bodyPre m c t ⊢ wp frame (wpE (defs₀ (F := F)) Variants.none c none) Set.univ (bodyAt0 t) (fun _ => bodyPost m c t) := by
  have hg : t.val % 4 = 0 ∨ t.val % 4 = 1 ∨ t.val % 4 = 2 ∨ t.val % 4 = 3 := by omega
  rcases hg with h | h | h | h
  · exact sound_A m c t h
  · exact sound_B m c t h
  · exact sound_C m c t h
  · exact sound_D m c t h

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the scratch there. -/
theorem hin (c : Dev nD) : Pipeline.ΦA spec0 c ⊢ (dats m 0 c).Φ 0 := by
  rw [Phi_eq m c 0, PhiA0_eq]
  unfold PhiS
  iintro ⟨⟨%d, HS0⟩, Hg⟩
  isplitl [HS0]
  · iexists d; isplitr
    · ipureintro; exact Inv_of_mod m c _ rfl d
    · iexact HS0
  iexact Hg

/-- After the last point the invariant gives the class's back: what the scratch holds is forgotten. -/
theorem hout (c : Dev nD) : (dats m 0 c).Φ (Fin.last cfg0.N) ⊢ Pipeline.ΦA spec0 c := by
  rw [Phi_eq m c (Fin.last cfg0.N), PhiA0_eq]
  unfold PhiS
  iintro ⟨⟨%X, %hX, HS0⟩, Hg⟩
  isplitl [HS0]
  · iexists X; iexact HS0
  iexact Hg

/-! ## The run and the frame -/

set_option backward.isDefEq.respectTransparency.types false in
/-- Every weakly fair execution of @main terminates, every array of the pipeline at what the library computes from the proof
    data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.lean ====
/-
  An LSTM cell, as a pipelined kernel against its plain reference, equal over the extended reals.

  With x, h, c of shape [4096, 1024], weights Wh, Wx of shape [4096, 1024] (four gate blocks of 1024 rows) and a bias bh
  of length 4096, both programs compute, for batch row r and hidden unit q,
      pre r j = ∑ₖ h[r,k]·Wh[j,k] + ∑ₖ x[r,k]·Wx[j,k] + bh[j]          (j = 1024·gate + q),
      c' = σ(pre f)·c + σ(pre i)·tanh(pre g),        h' = σ(pre o)·tanh(c').
  The kernel walks a 16 × 4 grid: at point (b, g) it multiplies batch block b of h and x (256 rows) with gate g's 1024 rows
  of the two weight arrays, adds the gate's bias and stores the 256 × 1024 block into column slice g of a 256 × 4096
  scratch; at g = 3 it reads the whole scratch, applies the gates to the four slices and the c block, and stores the h'
  and c' blocks, which are written back once per batch block. The reference multiplies whole arrays, adds the bias before
  the second product, slices the 4096 columns into the four gates and spells the logistic function as 1 / (1 + exp(−z)).
  Over the extended reals a change of float format is the identity, a product accumulated into zero is the sum, the
  logistic function is that quotient by definition, and the three summands of pre may be added in any order; nothing else
  separates the two, and no finiteness is needed.

  The frames of the two kernel programs are one proof, generic in the float instance (Proof/KI for the idealized program,
  Proof/KB the same text at the word-level program): the region invariant says that before point 4b + g the scratch's
  slices below g hold batch block b's pre-activation blocks. The kernel's result arrays are then read off the proof data's
  write-backs (Proof/KI/Value.lean), the reference's off its generated run (Proof/RefValue.lean), and both are the
  specification's arrays (Proof/Spec.lean).
-/
import proofs.«168099_j41764261986629_1_alg».proof.Defs
import proofs.«168099_j41764261986629_1_alg».proof.Proof.Gen.Kernel
import proofs.«168099_j41764261986629_1_alg».proof.Proof.Gen.KernelIdeal
import proofs.«168099_j41764261986629_1_alg».proof.Proof.Gen.ReferenceIdeal
import proofs.«168099_j41764261986629_1_alg».proof.Proof.Gen.ReferenceIdeal.Run
import proofs.«168099_j41764261986629_1_alg».proof.Proof.Gen.ReferenceIdeal.Read
import proofs.«168099_j41764261986629_1_alg».proof.Proof.Gen.Pre_finite_inputs
import proofs.«168099_j41764261986629_1_alg».proof.Proof.Spec
import proofs.«168099_j41764261986629_1_alg».proof.Proof.RefValue
import proofs.«168099_j41764261986629_1_alg».proof.Proof.KI.Full
import proofs.«168099_j41764261986629_1_alg».proof.Proof.KI.Value
import proofs.«168099_j41764261986629_1_alg».proof.Proof.KB.Body
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's next hidden state and next cell state of the arguments. -/
theorem algebraic : Cert.algebraic_KernelIdeal_ReferenceIdeal := by
  intro m ρ m' ρ' _ hagree
  refine ⟨fun c => (Cert.KernelIdeal.Hand.dats (F := Ideal) m 0 c).arrAt 6 Cert.KernelIdeal.cfg0.N,
    fun c => (Cert.KernelIdeal.Hand.dats (F := Ideal) m 0 c).arrAt 7 Cert.KernelIdeal.cfg0.N,
    Cert.KernelIdeal.Hand.run_full (F := Ideal) m ρ, ?_⟩
  refine (θ_run Cert.ReferenceIdeal.defs _ _).mono (fun r h c => ?_) (Cert.ReferenceIdeal.Value.run (F := Ideal) m' ρ')
  obtain ⟨h35, h33, hrest⟩ := h c
  obtain ⟨e0, e1, e2, e3, e4, e5⟩ := hagree c
  refine ⟨?_, ?_, hrest⟩
  · refine h35.trans ((Cert.ReferenceIdeal.Read.val_main_v35_eq _ _ _ _ _ _).trans ((Cert.ReferenceIdeal.RefValue.hNext_eq _ _ _ _ _ _).trans ?_))
    rw [e0, e1, e2, e3, e4, e5]
    exact (Cert.KernelIdeal.OutValue.final6 m c).symm
  · refine h33.trans ((Cert.ReferenceIdeal.Read.val_main_v33_eq _ _ _ _ _ _).trans ((Cert.ReferenceIdeal.RefValue.cNext_eq _ _ _ _ _ _).trans ?_))
    rw [e0, e1, e2, e3, e4, e5]
    exact (Cert.KernelIdeal.OutValue.final7 m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
